-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x256x32 : Shape := ⟨4, ![32, 256, 256, 32]⟩
abbrev S2x32 : Shape := ⟨2, ![2, 32]⟩
abbrev S2x32768 : Shape := ⟨2, ![2, 32768]⟩
abbrev S8192 : Shape := ⟨1, ![8192]⟩
abbrev S_ : Shape := ⟨0, ![]⟩

class Facts : Prop where
  bcast_S_S32x256x256x32 : S_.BroadcastsInDim S32x256x256x32 (![] : Fin 0 → Fin S32x256x256x32.rank)
  reducesTo_S32x256x256x32_S_d0_1_2_3 : S32x256x256x32.ReducesTo [0, 1, 2, 3] S_
  h_S_ : 0 < S_.numel
  bcast_S_S2x32 : S_.BroadcastsInDim S2x32 (![] : Fin 0 → Fin S2x32.rank)
  reducesTo_S2x32_S_d0_1 : S2x32.ReducesTo [0, 1] S_

variable [Facts]

def fn {F : FTy → Type} [FloatOps F] (main_arg0 : FVec F S32x256x256x32 .f32) (main_arg1 : FVec F S2x32 .f32) (main_arg2 : IVec S2x32768 32) (main_arg3 : IVec S8192 32) : IVec S_ 1 :=
  let main_v0 : FVec F S32x256x256x32 .f32 := Host.absf main_arg0
  let main_cst : FVec F S_ .f32 := constant S_ .f32 0x7F800000#32
  let main_v1 : FVec F S32x256x256x32 .f32 := broadcastInDim S32x256x256x32 ![] bcast_S_S32x256x256x32 main_cst
  let main_v2 : IVec S32x256x256x32 1 := cmpf .olt main_v0 main_v1
  let main_c : IVec S_ 1 := constantI S_ 1 1#1
  let main_v3 : IVec S_ 1 := (fun x v => Host.reduce IntOp.andi x v reducesTo_S32x256x256x32_S_d0_1_2_3 h_S_) main_v2 main_c
  let main_v4 : FVec F S2x32 .f32 := Host.absf main_arg1
  let main_cst_0 : FVec F S_ .f32 := constant S_ .f32 0x7F800000#32
  let main_v5 : FVec F S2x32 .f32 := broadcastInDim S2x32 ![] bcast_S_S2x32 main_cst_0
  let main_v6 : IVec S2x32 1 := cmpf .olt main_v4 main_v5
  let main_c_1 : IVec S_ 1 := constantI S_ 1 1#1
  let main_v7 : IVec S_ 1 := (fun x v => Host.reduce IntOp.andi x v reducesTo_S2x32_S_d0_1 h_S_) main_v6 main_c_1
  let main_v8 : IVec S_ 1 := andi main_v3 main_v7
  main_v8
-- ==== Kernel.lean ====
abbrev S32x256x256x32 : Shape := ⟨4, ![32, 256, 256, 32]⟩
abbrev S2x32 : Shape := ⟨2, ![2, 32]⟩
abbrev S2x32768 : Shape := ⟨2, ![2, 32768]⟩
abbrev S8192 : Shape := ⟨1, ![8192]⟩
abbrev S1x32768 : Shape := ⟨2, ![1, 32768]⟩
abbrev S32768 : Shape := ⟨1, ![32768]⟩
abbrev S_ : Shape := ⟨0, ![]⟩
abbrev S32768x1 : Shape := ⟨2, ![32768, 1]⟩
abbrev S32x256x256 : Shape := ⟨3, ![32, 256, 256]⟩
abbrev S32768x3 : Shape := ⟨2, ![32768, 3]⟩
abbrev S1x32 : Shape := ⟨2, ![1, 32]⟩
abbrev S32 : Shape := ⟨1, ![32]⟩
abbrev S1x128x256x32 : Shape := ⟨4, ![1, 128, 256, 32]⟩
abbrev S1x128x256 : Shape := ⟨3, ![1, 128, 256]⟩
abbrev S1x128x256x1 : Shape := ⟨4, ![1, 128, 256, 1]⟩
abbrev S1x1x1x32 : Shape := ⟨4, ![1, 1, 1, 32]⟩

abbrev nBuf : Space → Nat
  | .hbm => 59
  | .vmem => 7
  | .smem => 0
  | _ => 0

abbrev bufTy : (tb : Table) → Fin (tcTables nBuf tb) → BufTy
  | .hbm, ⟨0, _⟩ => ⟨S32x256x256x32, .f32⟩
  | .hbm, ⟨1, _⟩ => ⟨S2x32, .f32⟩
  | .hbm, ⟨2, _⟩ => ⟨S2x32768, .i32⟩
  | .hbm, ⟨3, _⟩ => ⟨S8192, .i32⟩
  | .hbm, ⟨4, _⟩ => ⟨S1x32768, .i32⟩
  | .hbm, ⟨5, _⟩ => ⟨S32768, .i32⟩
  | .hbm, ⟨6, _⟩ => ⟨S1x32768, .i32⟩
  | .hbm, ⟨7, _⟩ => ⟨S32768, .i32⟩
  | .hbm, ⟨8, _⟩ => ⟨S_, .i32⟩
  | .hbm, ⟨9, _⟩ => ⟨S32768, .i32⟩
  | .hbm, ⟨10, _⟩ => ⟨S32768, .i1⟩
  | .hbm, ⟨11, _⟩ => ⟨S_, .i32⟩
  | .hbm, ⟨12, _⟩ => ⟨S32768, .i32⟩
  | .hbm, ⟨13, _⟩ => ⟨S32768, .i32⟩
  | .hbm, ⟨14, _⟩ => ⟨S32768, .i32⟩
  | .hbm, ⟨15, _⟩ => ⟨S32768x1, .i32⟩
  | .hbm, ⟨16, _⟩ => ⟨S32768, .i32⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S32768, .i32⟩
  | .hbm, ⟨21, _⟩ => ⟨S_, .i32⟩
  | .hbm, ⟨22, _⟩ => ⟨S32768, .i32⟩
  | .hbm, ⟨23, _⟩ => ⟨S32768, .i32⟩
  | .hbm, ⟨24, _⟩ => ⟨S32768, .i32⟩
  | .hbm, ⟨25, _⟩ => ⟨S_, .i32⟩
  | .hbm, ⟨26, _⟩ => ⟨S32x256x256, .i32⟩
  | .hbm, ⟨27, _⟩ => ⟨S_, .i32⟩
  | .hbm, ⟨28, _⟩ => ⟨S32768, .i32⟩
  | .hbm, ⟨29, _⟩ => ⟨S32768, .i1⟩
  | .hbm, ⟨30, _⟩ => ⟨S_, .i32⟩
  | .hbm, ⟨31, _⟩ => ⟨S32768, .i32⟩
  | .hbm, ⟨32, _⟩ => ⟨S32768, .i32⟩
  | .hbm, ⟨33, _⟩ => ⟨S32768, .i32⟩
  | .hbm, ⟨34, _⟩ => ⟨S_, .i32⟩
  | .hbm, ⟨35, _⟩ => ⟨S32768, .i32⟩
  | .hbm, ⟨36, _⟩ => ⟨S32768, .i1⟩
  | .hbm, ⟨37, _⟩ => ⟨S_, .i32⟩
  | .hbm, ⟨38, _⟩ => ⟨S32768, .i32⟩
  | .hbm, ⟨39, _⟩ => ⟨S32768, .i32⟩
  | .hbm, ⟨40, _⟩ => ⟨S32768, .i32⟩
  | .hbm, ⟨41, _⟩ => ⟨S_, .i32⟩
  | .hbm, ⟨42, _⟩ => ⟨S32768, .i32⟩
  | .hbm, ⟨43, _⟩ => ⟨S32768, .i1⟩
  | .hbm, ⟨44, _⟩ => ⟨S_, .i32⟩
  | .hbm, ⟨45, _⟩ => ⟨S32768, .i32⟩
  | .hbm, ⟨46, _⟩ => ⟨S32768, .i32⟩
  | .hbm, ⟨47, _⟩ => ⟨S32768, .i32⟩
  | .hbm, ⟨48, _⟩ => ⟨S32768x1, .i32⟩
  | .hbm, ⟨49, _⟩ => ⟨S32768x1, .i32⟩
  | .hbm, ⟨50, _⟩ => ⟨S32768x1, .i32⟩
  | .hbm, ⟨51, _⟩ => ⟨S32768x3, .i32⟩
  | .hbm, ⟨52, _⟩ => ⟨S_, .i32⟩
  | .hbm, ⟨53, _⟩ => ⟨S32768, .i32⟩
  | .hbm, ⟨54, _⟩ => ⟨S32x256x256, .i32⟩
  | .hbm, ⟨55, _⟩ => ⟨S1x32, .f32⟩
  | .hbm, ⟨56, _⟩ => ⟨S32, .f32⟩
  | .hbm, ⟨57, _⟩ => ⟨S1x32, .f32⟩
  | .hbm, ⟨58, _⟩ => ⟨S32x256x256x32, .f32⟩
  | .local _ .vmem, ⟨0, _⟩ => ⟨S1x128x256x32, .f32⟩
  | .local _ .vmem, ⟨1, _⟩ => ⟨S1x128x256x32, .f32⟩
  | .local _ .vmem, ⟨2, _⟩ => ⟨S1x128x256, .i32⟩
  | .local _ .vmem, ⟨3, _⟩ => ⟨S1x128x256, .i32⟩
  | .local _ .vmem, ⟨4, _⟩ => ⟨S1x32, .f32⟩
  | .local _ .vmem, ⟨5, _⟩ => ⟨S1x128x256x32, .f32⟩
  | .local _ .vmem, ⟨6, _⟩ => ⟨S1x128x256x32, .f32⟩
  | _, _ => ⟨S32x256x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_c_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_c_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S2x32768_S1x32768_0_0 : S2x32768.Slices ![0, 0] S1x32768
  shapeCasts_S1x32768_S32768 : S1x32768.ShapeCasts S32768
  slices_S2x32768_S1x32768_1_0 : S2x32768.Slices ![1, 0] S1x32768
  bcast_S_S32768 : S_.BroadcastsInDim S32768 (![] : Fin 0 → Fin S32768.rank)
  bcast_S32768_S32768x1_0 : S32768.BroadcastsInDim S32768x1 (![0] : Fin 1 → Fin S32768x1.rank)
  bcast_S_S32x256x256 : S_.BroadcastsInDim S32x256x256 (![] : Fin 0 → Fin S32x256x256.rank)
  concatenates_S32768x1_S32768x1_S32768x1_S32768x3_d1 : Shape.Concatenates [S32768x1, S32768x1, S32768x1] S32768x3 1
  slices_S2x32_S1x32_1_0 : S2x32.Slices ![1, 0] S1x32
  shapeCasts_S1x32_S32 : S1x32.ShapeCasts S32
  shapeCasts_S32_S1x32 : S32.ShapeCasts S1x32
  inb_S1x128x256_S1x128x256_0_0_0 : ∀ a, (![0, 0, 0] : Fin 3 → Nat) a + S1x128x256.size a ≤ S1x128x256.size a
  h_S1x128x256 : 0 < S1x128x256.numel
  shapeCasts_S1x128x256_S1x128x256 : S1x128x256.ShapeCasts S1x128x256
  inb_S1x32_S1x32_0_0 : ∀ a, (![0, 0] : Fin 2 → Nat) a + S1x32.size a ≤ S1x32.size a
  h_S1x32 : 0 < S1x32.numel
  shapeCasts_S1x128x256_S1x128x256x1 : S1x128x256.ShapeCasts S1x128x256x1
  shapeCasts_S32_S1x1x1x32 : S32.ShapeCasts S1x1x1x32
  broadcasts_S1x128x256x1_S1x128x256x32 : S1x128x256x1.Broadcasts S1x128x256x32
  broadcasts_S1x1x1x32_S1x128x256x32 : S1x1x1x32.Broadcasts S1x128x256x32
  inb_S1x128x256x32_S1x128x256x32_0_0_0_0 : ∀ a, (![0, 0, 0, 0] : Fin 4 → Nat) a + S1x128x256x32.size a ≤ S1x128x256x32.size a
  h_S1x128x256x32 : 0 < S1x128x256x32.numel
  gather_S8192_S32768x1_S32768_n_0_n_n_0_1_1_wf : GatherDims.WF S8192 S32768x1 S32768 [] [0] [] [0] [] 1 ![1]
  scatter_S32x256x256_S32768x3_S32768_n_012_012_1_wf : ScatterDims.WF S32x256x256 S32768x3 S32768 [] [0, 1, 2] [0, 1, 2] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256x32.size a ≤ S32x256x256x32.size a
  hwx0_0 : ∀ i : grid0.Coords, EltTy.bits .f32 = 32 ∨ (Rect.block (s := S32x256x256x32) S1x128x256x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S32x256x256.size a
  hwx0_1 : ∀ i : grid0.Coords, EltTy.bits .i32 = 32 ∨ (Rect.block (s := S32x256x256) S1x128x256.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x256x32.size a ≤ S32x256x256x32.size a
  hwx0_3 : ∀ i : grid0.Coords, EltTy.bits .f32 = 32 ∨ (Rect.block (s := S32x256x256x32) S1x128x256x32.size (cc0_transform_3 i) (hinb0_3 i)).WholeWords (EltTy.packing .f32)

variable [Facts₀]

def gather_S8192_S32768x1_S32768_n_0_n_n_0_1_1 : GatherDims S8192 S32768x1 S32768 where
  offsetDims := []
  collapsedSliceDims := [0]
  operandBatchingDims := []
  startIndicesBatchingDims := []
  startIndexMap := [0]
  indexVectorDim := 1
  sliceSizes := ![1]
  wf := gather_S8192_S32768x1_S32768_n_0_n_n_0_1_1_wf
def scatter_S32x256x256_S32768x3_S32768_n_012_012_1 : ScatterDims S32x256x256 S32768x3 S32768 where
  updateWindowDims := []
  insertedWindowDims := [0, 1, 2]
  scatterDimsToOperandDims := [0, 1, 2]
  indexVectorDim := 1
  wf := scatter_S32x256x256_S32768x3_S32768_n_012_012_1_wf

abbrev win0_0 : Pipeline.Window sig grid0 :=
  Pipeline.Window.ofSpec (Memref.whole main_arg0) S1x128x256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S1x128x256x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x256x32 : Shape := ⟨4, ![32, 256, 256, 32]⟩
abbrev S2x32 : Shape := ⟨2, ![2, 32]⟩
abbrev S2x32768 : Shape := ⟨2, ![2, 32768]⟩
abbrev S8192 : Shape := ⟨1, ![8192]⟩
abbrev S1x32768 : Shape := ⟨2, ![1, 32768]⟩
abbrev S32768 : Shape := ⟨1, ![32768]⟩
abbrev S_ : Shape := ⟨0, ![]⟩
abbrev S32768x1 : Shape := ⟨2, ![32768, 1]⟩
abbrev S32x256x256 : Shape := ⟨3, ![32, 256, 256]⟩
abbrev S32768x3 : Shape := ⟨2, ![32768, 3]⟩
abbrev S1 : Shape := ⟨1, ![1]⟩
abbrev S32 : Shape := ⟨1, ![32]⟩
abbrev S32x256x256x1 : Shape := ⟨4, ![32, 256, 256, 1]⟩

abbrev nBuf : Space → Nat
  | .hbm => 70
  | .vmem => 0
  | .smem => 0
  | _ => 0

abbrev bufTy : (tb : Table) → Fin (tcTables nBuf tb) → BufTy
  | .hbm, ⟨0, _⟩ => ⟨S32x256x256x32, .f32⟩
  | .hbm, ⟨1, _⟩ => ⟨S2x32, .f32⟩
  | .hbm, ⟨2, _⟩ => ⟨S2x32768, .i32⟩
  | .hbm, ⟨3, _⟩ => ⟨S8192, .i32⟩
  | .hbm, ⟨4, _⟩ => ⟨S1x32768, .i32⟩
  | .hbm, ⟨5, _⟩ => ⟨S32768, .i32⟩
  | .hbm, ⟨6, _⟩ => ⟨S1x32768, .i32⟩
  | .hbm, ⟨7, _⟩ => ⟨S32768, .i32⟩
  | .hbm, ⟨8, _⟩ => ⟨S_, .i32⟩
  | .hbm, ⟨9, _⟩ => ⟨S32768, .i32⟩
  | .hbm, ⟨10, _⟩ => ⟨S32768, .i1⟩
  | .hbm, ⟨11, _⟩ => ⟨S_, .i32⟩
  | .hbm, ⟨12, _⟩ => ⟨S32768, .i32⟩
  | .hbm, ⟨13, _⟩ => ⟨S32768, .i32⟩
  | .hbm, ⟨14, _⟩ => ⟨S32768, .i32⟩
  | .hbm, ⟨15, _⟩ => ⟨S32768x1, .i32⟩
  | .hbm, ⟨16, _⟩ => ⟨S32768, .i32⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S32768, .i32⟩
  | .hbm, ⟨21, _⟩ => ⟨S_, .i32⟩
  | .hbm, ⟨22, _⟩ => ⟨S32768, .i32⟩
  | .hbm, ⟨23, _⟩ => ⟨S32768, .i32⟩
  | .hbm, ⟨24, _⟩ => ⟨S32768, .i32⟩
  | .hbm, ⟨25, _⟩ => ⟨S_, .i32⟩
  | .hbm, ⟨26, _⟩ => ⟨S32x256x256, .i32⟩
  | .hbm, ⟨27, _⟩ => ⟨S_, .i32⟩
  | .hbm, ⟨28, _⟩ => ⟨S32768, .i32⟩
  | .hbm, ⟨29, _⟩ => ⟨S32768, .i1⟩
  | .hbm, ⟨30, _⟩ => ⟨S_, .i32⟩
  | .hbm, ⟨31, _⟩ => ⟨S32768, .i32⟩
  | .hbm, ⟨32, _⟩ => ⟨S32768, .i32⟩
  | .hbm, ⟨33, _⟩ => ⟨S32768, .i32⟩
  | .hbm, ⟨34, _⟩ => ⟨S_, .i32⟩
  | .hbm, ⟨35, _⟩ => ⟨S32768, .i32⟩
  | .hbm, ⟨36, _⟩ => ⟨S32768, .i1⟩
  | .hbm, ⟨37, _⟩ => ⟨S_, .i32⟩
  | .hbm, ⟨38, _⟩ => ⟨S32768, .i32⟩
  | .hbm, ⟨39, _⟩ => ⟨S32768, .i32⟩
  | .hbm, ⟨40, _⟩ => ⟨S32768, .i32⟩
  | .hbm, ⟨41, _⟩ => ⟨S_, .i32⟩
  | .hbm, ⟨42, _⟩ => ⟨S32768, .i32⟩
  | .hbm, ⟨43, _⟩ => ⟨S32768, .i1⟩
  | .hbm, ⟨44, _⟩ => ⟨S_, .i32⟩
  | .hbm, ⟨45, _⟩ => ⟨S32768, .i32⟩
  | .hbm, ⟨46, _⟩ => ⟨S32768, .i32⟩
  | .hbm, ⟨47, _⟩ => ⟨S32768, .i32⟩
  | .hbm, ⟨48, _⟩ => ⟨S32768x1, .i32⟩
  | .hbm, ⟨49, _⟩ => ⟨S32768x1, .i32⟩
  | .hbm, ⟨50, _⟩ => ⟨S32768x1, .i32⟩
  | .hbm, ⟨51, _⟩ => ⟨S32768x3, .i32⟩
  | .hbm, ⟨52, _⟩ => ⟨S_, .i32⟩
  | .hbm, ⟨53, _⟩ => ⟨S32768, .i32⟩
  | .hbm, ⟨54, _⟩ => ⟨S32x256x256, .i32⟩
  | .hbm, ⟨55, _⟩ => ⟨S_, .i32⟩
  | .hbm, ⟨56, _⟩ => ⟨S1, .i32⟩
  | .hbm, ⟨57, _⟩ => ⟨S_, .f32⟩
  | .hbm, ⟨58, _⟩ => ⟨S32, .f32⟩
  | .hbm, ⟨59, _⟩ => ⟨S2x32, .f32⟩
  | .hbm, ⟨60, _⟩ => ⟨S_, .i32⟩
  | .hbm, ⟨61, _⟩ => ⟨S32x256x256, .i32⟩
  | .hbm, ⟨62, _⟩ => ⟨S32x256x256, .i1⟩
  | .hbm, ⟨63, _⟩ => ⟨S_, .i32⟩
  | .hbm, ⟨64, _⟩ => ⟨S32x256x256, .i32⟩
  | .hbm, ⟨65, _⟩ => ⟨S32x256x256, .i32⟩
  | .hbm, ⟨66, _⟩ => ⟨S32x256x256, .i32⟩
  | .hbm, ⟨67, _⟩ => ⟨S32x256x256x1, .i32⟩
  | .hbm, ⟨68, _⟩ => ⟨S32x256x256x32, .f32⟩
  | .hbm, ⟨69, _⟩ => ⟨S32x256x256x32, .f32⟩
  | _, _ => ⟨S32x256x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_c_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_c_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_10 : Ref sig .tc := ⟨.hbm, 52, rfl⟩
abbrev main_v37 : Ref sig .tc := ⟨.hbm, 53, rfl⟩
abbrev main_v38 : Ref sig .tc := ⟨.hbm, 54, rfl⟩
abbrev main_c_11 : Ref sig .tc := ⟨.hbm, 55, rfl⟩
abbrev main_v39 : Ref sig .tc := ⟨.hbm, 56, rfl⟩
abbrev main_cst : Ref sig .tc := ⟨.hbm, 57, rfl⟩
abbrev main_v40 : Ref sig .tc := ⟨.hbm, 58, rfl⟩
abbrev main_v41 : Ref sig .tc := ⟨.hbm, 59, rfl⟩
abbrev main_c_12 : Ref sig .tc := ⟨.hbm, 60, rfl⟩
abbrev main_v42 : Ref sig .tc := ⟨.hbm, 61, rfl⟩
abbrev main_v43 : Ref sig .tc := ⟨.hbm, 62, rfl⟩
abbrev main_c_13 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S2x32768_S1x32768_0_0 : S2x32768.Slices ![0, 0] S1x32768
  shapeCasts_S1x32768_S32768 : S1x32768.ShapeCasts S32768
  slices_S2x32768_S1x32768_1_0 : S2x32768.Slices ![1, 0] S1x32768
  bcast_S_S32768 : S_.BroadcastsInDim S32768 (![] : Fin 0 → Fin S32768.rank)
  bcast_S32768_S32768x1_0 : S32768.BroadcastsInDim S32768x1 (![0] : Fin 1 → Fin S32768x1.rank)
  bcast_S_S32x256x256 : S_.BroadcastsInDim S32x256x256 (![] : Fin 0 → Fin S32x256x256.rank)
  concatenates_S32768x1_S32768x1_S32768x1_S32768x3_d1 : Shape.Concatenates [S32768x1, S32768x1, S32768x1] S32768x3 1
  bcast_S_S1 : S_.BroadcastsInDim S1 (![] : Fin 0 → Fin S1.rank)
  bcast_S_S32 : S_.BroadcastsInDim S32 (![] : Fin 0 → Fin S32.rank)
  bcast_S32x256x256_S32x256x256x1_0_1_2 : S32x256x256.BroadcastsInDim S32x256x256x1 (![0, 1, 2] : Fin 3 → Fin S32x256x256x1.rank)
  gather_S8192_S32768x1_S32768_n_0_n_n_0_1_1_wf : GatherDims.WF S8192 S32768x1 S32768 [] [0] [] [0] [] 1 ![1]
  scatter_S32x256x256_S32768x3_S32768_n_012_012_1_wf : ScatterDims.WF S32x256x256 S32768x3 S32768 [] [0, 1, 2] [0, 1, 2] 1
  scatter_S2x32_S1_S32_0_0_0_0_wf : ScatterDims.WF S2x32 S1 S32 [0] [0] [0] 0
  gather_S2x32_S32x256x256x1_S32x256x256x32_3_0_n_n_0_3_132_wf : GatherDims.WF S2x32 S32x256x256x1 S32x256x256x32 [3] [0] [] [0] [] 3 ![1, 32]

variable [Facts₀]

def gather_S8192_S32768x1_S32768_n_0_n_n_0_1_1 : GatherDims S8192 S32768x1 S32768 where
  offsetDims := []
  collapsedSliceDims := [0]
  operandBatchingDims := []
  startIndicesBatchingDims := []
  startIndexMap := [0]
  indexVectorDim := 1
  sliceSizes := ![1]
  wf := gather_S8192_S32768x1_S32768_n_0_n_n_0_1_1_wf
def scatter_S32x256x256_S32768x3_S32768_n_012_012_1 : ScatterDims S32x256x256 S32768x3 S32768 where
  updateWindowDims := []
  insertedWindowDims := [0, 1, 2]
  scatterDimsToOperandDims := [0, 1, 2]
  indexVectorDim := 1
  wf := scatter_S32x256x256_S32768x3_S32768_n_012_012_1_wf
def scatter_S2x32_S1_S32_0_0_0_0 : ScatterDims S2x32 S1 S32 where
  updateWindowDims := [0]
  insertedWindowDims := [0]
  scatterDimsToOperandDims := [0]
  indexVectorDim := 0
  wf := scatter_S2x32_S1_S32_0_0_0_0_wf
def gather_S2x32_S32x256x256x1_S32x256x256x32_3_0_n_n_0_3_132 : GatherDims S2x32 S32x256x256x1 S32x256x256x32 where
  offsetDims := [3]
  collapsedSliceDims := [0]
  operandBatchingDims := []
  startIndicesBatchingDims := []
  startIndexMap := [0]
  indexVectorDim := 3
  sliceSizes := ![1, 32]
  wf := gather_S2x32_S32x256x256x1_S32x256x256x32_3_0_n_n_0_3_132_wf

class Facts : Prop extends Facts₀ where

variable [Facts]
-- ==== Proof.FrameBits.lean ====
/-
  The kernel program, read at the word level as printed, runs to its end and leaves its arguments as they were; and what
  its one grid of 32 by 2 points leaves in the result array.

  The program is a stretch of host operations — slices of the edge list, a lookup of each edge's graph, the local node
  indices, the scatter that makes the 0/1 ring adjacency, row 1 of the embedding table — and then one pipelined kernel
  over blocks of 128 source rows of one graph. At a point the kernel reads the block of edge features, the block of the
  adjacency and the table row, and stores into the output block the edge features plus the adjacency entry times the row.
  So the output's staging buffer after the body is one piece: the body's stored value over the three input blocks.
  Nothing else is written: the host operations write buffers of their own, never an argument, and the pipeline writes
  only the result array.
-/
import proofs.«417985_j46660524703963_1_alg».proof.Proof.Gen.Kernel.Launch
import proofs.«417985_j46660524703963_1_alg».proof.Proof.Gen.Kernel.Skeleton
import proofs.«417985_j46660524703963_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the kernel -/

/-- The core's buffers when the kernel is launched: the launch contents after the host operations, in order. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the kernel's launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Every host operation writes its own result buffer, which is no argument: the edge features are as launched, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- the embedding table, -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- the edge list, -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- and the node-to-graph vector. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The blocks the kernel reads -/

/-- Window w's block at grid point t, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The edge-feature window's current staging buffer holds its block at every point, whether the block was fetched
    there or carried over from the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the adjacency window, -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- and for the table row, which is fetched once: its block index never moves. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output's staging buffer -/

abbrev rEdge : Rect S1x128x256x32 := Rect.unit (s := S1x128x256x32) ![0, 0, 0, 0] S1x128x256x32.size inb_S1x128x256x32_S1x128x256x32_0_0_0_0
abbrev rAdj : Rect S1x128x256 := Rect.unit (s := S1x128x256) ![0, 0, 0] S1x128x256.size inb_S1x128x256_S1x128x256_0_0_0
abbrev rRow : Rect S1x32 := Rect.unit (s := S1x32) ![0, 0] S1x32.size inb_S1x32_S1x32_0_0

/-- The output block after the body, from the three input blocks: one store of the whole block. -/
def out0_3 (x0 : Vec F S1x128x256x32 .f32) (x1 : Vec F S1x128x256 .i32) (x2 : Vec F S1x32 .f32) : Vec F S1x128x256x32 .f32 :=
  View.canon [⟨rEdge, k0_pay1 (View.ld x1 rAdj) (View.ld x2 rRow) (View.ld x0 rEdge)⟩]

/-- The one store covers the buffer. -/
theorem cover0_3 (p0 : Vec F S1x128x256x32 .f32) (y : S1x128x256x32.Idx) :
    ∃ pc ∈ ([⟨rEdge, p0⟩] : List (View.Piece (Elt F) S1x128x256x32 .f32)), y ∈ pc.1.set :=
  View.cover_of_tiled [⟨rEdge, p0⟩] S1x128x256x32.size (by rfl) y

/-! ## The body -/

set_option maxHeartbeats 1000000 in
/-- The body on whole staging buffers, the inputs' at contents x0 x1 x2 and the output's at anything, runs to the
    continuation with the inputs as they were and the output at the stored value. -/
theorem sound_kernel (c : Dev nD) (E : Set ℕ) (i : grid0.Coords)
    (arg2 : Memref sig .tc .vmem S1x128x256x32 .f32) (harg2 : arg2.IsWhole) (arg3 : Memref sig .tc .vmem S1x128x256 .i32) (harg3 : arg3.IsWhole)
    (arg4 : Memref sig .tc .vmem S1x32 .f32) (harg4 : arg4.IsWhole) (arg5 : Memref sig .tc .vmem S1x128x256x32 .f32) (harg5 : arg5.IsWhole)
    (x0 : Vec F S1x128x256x32 .f32) (x1 : Vec F S1x128x256 .i32) (x2 : Vec F S1x32 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__add_kernel i arg2 harg2 arg3 harg3 arg4 harg4 arg5 harg5) K := by
  simp only [cc0__add_kernel_eq_skeleton]; unfold cc0__add_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- On core c: the arrays as the kernel finds them; after the body at point t each input's buffer at its block and
    the output's at the stored value over the input blocks; the kernel keeps nothing of its own between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates; at the end every array of the pipeline holds what the
    proof data say and every other buffer that outlives the kernel holds what the kernel found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as launched: the edge features are an input window's array, the other three no window's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel.Fr

end
-- ==== Proof.FrameIdeal.lean ====
/-
  The idealized kernel program runs to its end and leaves its arguments as they were; and what its one grid of 32 by 2
  points leaves in the result array.

  The program is a stretch of host operations — slices of the edge list, a lookup of each edge's graph, the local node
  indices, the scatter that makes the 0/1 ring adjacency, row 1 of the embedding table — and then one pipelined kernel
  over blocks of 128 source rows of one graph. At a point the kernel reads the block of edge features, the block of the
  adjacency and the table row, and stores into the output block the edge features plus the adjacency entry times the row.
  So the output's staging buffer after the body is one piece: the body's stored value over the three input blocks.
  Nothing else is written: the host operations write buffers of their own, never an argument, and the pipeline writes
  only the result array.
-/
import proofs.«417985_j46660524703963_1_alg».proof.Proof.Gen.KernelIdeal.Launch
import proofs.«417985_j46660524703963_1_alg».proof.Proof.Gen.KernelIdeal.Skeleton
import proofs.«417985_j46660524703963_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the kernel -/

/-- The core's buffers when the kernel is launched: the launch contents after the host operations, in order. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the kernel's launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Every host operation writes its own result buffer, which is no argument: the edge features are as launched, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- the embedding table, -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- the edge list, -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- and the node-to-graph vector. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The blocks the kernel reads -/

/-- Window w's block at grid point t, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The edge-feature window's current staging buffer holds its block at every point, whether the block was fetched
    there or carried over from the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the adjacency window, -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- and for the table row, which is fetched once: its block index never moves. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output's staging buffer -/

abbrev rEdge : Rect S1x128x256x32 := Rect.unit (s := S1x128x256x32) ![0, 0, 0, 0] S1x128x256x32.size inb_S1x128x256x32_S1x128x256x32_0_0_0_0
abbrev rAdj : Rect S1x128x256 := Rect.unit (s := S1x128x256) ![0, 0, 0] S1x128x256.size inb_S1x128x256_S1x128x256_0_0_0
abbrev rRow : Rect S1x32 := Rect.unit (s := S1x32) ![0, 0] S1x32.size inb_S1x32_S1x32_0_0

/-- The output block after the body, from the three input blocks: one store of the whole block. -/
def out0_3 (x0 : Vec F S1x128x256x32 .f32) (x1 : Vec F S1x128x256 .i32) (x2 : Vec F S1x32 .f32) : Vec F S1x128x256x32 .f32 :=
  View.canon [⟨rEdge, k0_pay1 (View.ld x1 rAdj) (View.ld x2 rRow) (View.ld x0 rEdge)⟩]

/-- The one store covers the buffer. -/
theorem cover0_3 (p0 : Vec F S1x128x256x32 .f32) (y : S1x128x256x32.Idx) :
    ∃ pc ∈ ([⟨rEdge, p0⟩] : List (View.Piece (Elt F) S1x128x256x32 .f32)), y ∈ pc.1.set :=
  View.cover_of_tiled [⟨rEdge, p0⟩] S1x128x256x32.size (by rfl) y

/-! ## The body -/

set_option maxHeartbeats 1000000 in
/-- The body on whole staging buffers, the inputs' at contents x0 x1 x2 and the output's at anything, runs to the
    continuation with the inputs as they were and the output at the stored value. -/
theorem sound_kernel (c : Dev nD) (E : Set ℕ) (i : grid0.Coords)
    (arg2 : Memref sig .tc .vmem S1x128x256x32 .f32) (harg2 : arg2.IsWhole) (arg3 : Memref sig .tc .vmem S1x128x256 .i32) (harg3 : arg3.IsWhole)
    (arg4 : Memref sig .tc .vmem S1x32 .f32) (harg4 : arg4.IsWhole) (arg5 : Memref sig .tc .vmem S1x128x256x32 .f32) (harg5 : arg5.IsWhole)
    (x0 : Vec F S1x128x256x32 .f32) (x1 : Vec F S1x128x256 .i32) (x2 : Vec F S1x32 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__add_kernel i arg2 harg2 arg3 harg3 arg4 harg4 arg5 harg5) K := by
  simp only [cc0__add_kernel_eq_skeleton]; unfold cc0__add_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- On core c: the arrays as the kernel finds them; after the body at point t each input's buffer at its block and
    the output's at the stored value over the input blocks; the kernel keeps nothing of its own between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates; at the end every array of the pipeline holds what the
    proof data say and every other buffer that outlives the kernel holds what the kernel found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as launched: the edge features are an input window's array, the other three no window's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Fr

end
-- ==== Proof.Stored.lean ====
/-
  The value the kernel stores at a point, read at an index. The body loads a block of the adjacency (1 graph, 128 source
  rows, 256 targets, integers), the table row (1 by 32) and a block of edge features (1, 128, 256, 32). It turns the
  adjacency block into numbers, gives it a trailing axis of extent one and repeats it over the 32 channels; it drops the
  row's leading axis, gives it three leading axes of extent one and repeats it over the rows and targets; it multiplies
  the two and adds the edge features. So at (0, r, t, ch) the stored value is the edge feature there plus the adjacency
  entry (0, r, t), as an integer, times the row's entry (0, ch).
-/
import proofs.«417985_j46660524703963_1_alg».proof.Proof.Gen.KernelIdeal.Skeleton
import Idealize.ShloMosaic.PureOps.Ideal
import Idealize.ShloMosaic.Lib.ValueIdx
import Idealize.ShloMosaic.Lib.ValueLayout
import Idealize.ShloMosaic.Lib.Pipeline.Value

noncomputable section

namespace Cert.KernelIdeal.Stored

open Cert.KernelIdeal Cert.KernelIdeal.Gen Idealize.ShloMosaic Idealize.ShloMosaic.ValueIdx

/-- A [1, 128, 256] block given a trailing unit axis and repeated over 32 channels reads, at (0, r, t, ch), the block
    at (0, r, t). -/
theorem spread_adj {α : Type} (x : S1x128x256.Idx → α) (h1 : S1x128x256.ShapeCasts S1x128x256x1)
    (h2 : S1x128x256x1.Broadcasts S1x128x256x32) (r : Fin 128) (t : Fin 256) (ch : Fin 32) :
    broadcastTo S1x128x256x32 (shapeCast S1x128x256x1 x h1) h2 (ix4 (0 : Fin 1) r t ch) = x (ix3 (0 : Fin 1) r t) := by
  rw [broadcastTo_apply (shapeCast S1x128x256x1 x h1) h2 (ix4 (0 : Fin 1) r t ch) (ix4 (0 : Fin 1) r t (0 : Fin 1))
    (fun a => match a with
      | ⟨0, _⟩ => rfl
      | ⟨1, _⟩ => rfl
      | ⟨2, _⟩ => rfl
      | ⟨3, _⟩ => rfl)]
  exact shapeCast_apply x h1 _ _ (by
    rw [Shape.rowMajor_val_three, Shape.rowMajor_val_four]
    show (0 * 128 + r.val) * 256 + t.val = ((0 * 128 + r.val) * 256 + t.val) * 1 + 0
    omega)

/-- A [1, 32] row with its leading axis dropped, given three leading unit axes and repeated over 128 rows and 256
    targets reads, at (0, r, t, ch), the row at (0, ch). -/
theorem spread_row {α : Type} (x : S1x32.Idx → α) (h0 : S1x32.ShapeCasts S32) (h1 : S32.ShapeCasts S1x1x1x32)
    (h2 : S1x1x1x32.Broadcasts S1x128x256x32) (r : Fin 128) (t : Fin 256) (ch : Fin 32) :
    broadcastTo S1x128x256x32 (shapeCast S1x1x1x32 (shapeCast S32 x h0) h1) h2 (ix4 (0 : Fin 1) r t ch) = x (ix2 (0 : Fin 1) ch) := by
  rw [broadcastTo_apply (shapeCast S1x1x1x32 (shapeCast S32 x h0) h1) h2 (ix4 (0 : Fin 1) r t ch)
    (ix4 (0 : Fin 1) (0 : Fin 1) (0 : Fin 1) ch)
    (fun a => match a with
      | ⟨0, _⟩ => rfl
      | ⟨1, _⟩ => rfl
      | ⟨2, _⟩ => rfl
      | ⟨3, _⟩ => rfl)]
  rw [shapeCast_apply (shapeCast S32 x h0) h1 (ix4 (0 : Fin 1) (0 : Fin 1) (0 : Fin 1) ch) (ix1 ch) (by
    rw [Shape.rowMajor_val_one, Shape.rowMajor_val_four]
    show ch.val = ((0 * 1 + 0) * 1 + 0) * 32 + ch.val
    omega)]
  exact shapeCast_1a_a_apply x h0 ch

/-- THE STORED VALUE AT AN INDEX: the edge feature plus the adjacency entry, as an integer, times the row's entry. -/
theorem stored_apply (v0 : Vec Ideal S1x128x256 .i32) (v3 : Vec Ideal S1x32 .f32) (v10 : Vec Ideal S1x128x256x32 .f32)
    (r : Fin 128) (t : Fin 256) (ch : Fin 32) :
    k0_pay1 (F := Ideal) v0 v3 v10 (ix4 (0 : Fin 1) r t ch)
      = v10 (ix4 (0 : Fin 1) r t ch) + (((v0 (ix3 (0 : Fin 1) r t)).toInt : ℝ) : EReal) * v3 (ix2 (0 : Fin 1) ch) := by
  unfold k0_pay1
  show v10 (ix4 (0 : Fin 1) r t ch)
      + broadcastTo S1x128x256x32 (shapeCast S1x128x256x1 (sitofp (F := Ideal) .f32 (shapeCast S1x128x256 v0 shapeCasts_S1x128x256_S1x128x256)) shapeCasts_S1x128x256_S1x128x256x1) broadcasts_S1x128x256x1_S1x128x256x32 (ix4 (0 : Fin 1) r t ch)
        * broadcastTo S1x128x256x32 (shapeCast S1x1x1x32 (shapeCast S32 v3 shapeCasts_S1x32_S32) shapeCasts_S32_S1x1x1x32) broadcasts_S1x1x1x32_S1x128x256x32 (ix4 (0 : Fin 1) r t ch) = _
  rw [spread_adj, spread_row, shapeCast_self]
  rfl

end Cert.KernelIdeal.Stored

end
-- ==== Proof.Whole.lean ====
/-
  The kernel program's whole result array. Grid point (g, h) of the 32 by 2 grid handles graph g and the source rows
  128 h to 128 h + 127: it writes the output block at block index (g, h, 0, 0), having read the edge-feature block at the
  same block index, the adjacency block at (g, h, 0) and the table row at (0, 0). The 64 output blocks tile the result
  array. What a point stores at (0, r, t, ch) of its block is the edge feature plus the adjacency entry times the row's
  entry there; read through the blocks' positions, that is one function of the three arrays the kernel finds — at
  (g, s, t, ch): the edge feature plus adjacency (g, s, t), as an integer, times row (0, ch) — restricted to the block.
  Since every index of the result lies in some point's block, the result array is that function.
-/
import proofs.«417985_j46660524703963_1_alg».proof.Proof.FrameIdeal
import proofs.«417985_j46660524703963_1_alg».proof.Proof.Stored
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Fr Cert.KernelIdeal.Stored
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The three arrays the kernel reads, as it finds them: edge features, adjacency, table row. -/
abbrev edgeArr (c : Dev nD) : Vec Ideal S32x256x256x32 .f32 := V m c main_arg0
abbrev adjArr (c : Dev nD) : Vec Ideal S32x256x256 .i32 := V m c main_v38
abbrev rowArr (c : Dev nD) : Vec Ideal S1x32 .f32 := V m c main_v41

/-- The result as one function of three arrays: at (g, s, t, ch) the edge feature plus adjacency (g, s, t), as an
    integer, times row (0, ch). -/
def whole (edge : Vec Ideal S32x256x256x32 .f32) (adj : Vec Ideal S32x256x256 .i32) (row : Vec Ideal S1x32 .f32) :
    Vec Ideal S32x256x256x32 .f32 :=
  fun i => edge i + (((adj (ix3 (i 0) (i 1) (i 2))).toInt : ℝ) : EReal) * row (ix2 (0 : Fin 1) (i 3))

/-- The block indices over the grid: the edge-feature and adjacency windows move with the output's window on the
    graph and row-block axes, every other block index is zero, and the output's stay in range. -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_3.index t (2 : Fin 4) = 0 ∧ win0_3.index t (3 : Fin 4) = 0
    ∧ win0_1.index t (0 : Fin 3) = win0_3.index t (0 : Fin 4) ∧ win0_1.index t (1 : Fin 3) = win0_3.index t (1 : Fin 4)
    ∧ win0_1.index t (2 : Fin 3) = 0
    ∧ win0_2.index t (0 : Fin 2) = 0 ∧ win0_2.index t (1 : Fin 2) = 0
    ∧ win0_3.index t (0 : Fin 4) ≤ 31 ∧ win0_3.index t (1 : Fin 4) ≤ 1 :=
  (by decide +kernel : ∀ t : Fin grid0.N, _)

/-- Every (graph, row block) is some point's output block index. -/
theorem idx_onto : ∀ (q0 : Fin 32) (q1 : Fin 2), ∃ t : Fin cfg0.N, win0_3.index t = ![q0.val, q1.val, 0, 0] :=
  (by decide +kernel : ∀ (q0 : Fin 32) (q1 : Fin 2), ∃ t : Fin grid0.N, win0_3.index t = ![q0.val, q1.val, 0, 0])

/-- WHAT POINT t WRITES BACK is its block of the one function of the arrays the kernel finds. -/
theorem flushed_eq (c : Dev nD) (t : Fin cfg0.N) :
    (dats m 0 c).flushed 3 t
      = ((cfg0.win 3).blk t).view.read (Elt Ideal) (whole (edgeArr m c) (adjArr m c) (rowArr m c)) := by
  show (cfg0.win 3).cut (grid0.coords t) ((dats m 0 c).after 3 t) = _
  rw [after0_3]
  unfold out0_3
  rw [View.canon_unit_zero hz4]
  simp only [View.ld_unit_zero (S := S1x128x256x32) hz4, View.ld_unit_zero (S := S1x128x256) hz3,
    View.ld_unit_zero (S := S1x32) hz2]
  obtain ⟨e00, e01, e02, e03, e32, e33, e10, e11, e12, e20, e21, b0, b1⟩ := idx_facts t
  funext j
  obtain ⟨u, r, s, ch, rfl⟩ : ∃ (u : Fin 1) (r : Fin 128) (s : Fin 256) (ch : Fin 32), j = ix4 u r s ch :=
    ⟨j 0, j 1, j 2, j 3, eq_ix4 j⟩
  obtain rfl : u = 0 := Subsingleton.elim _ _
  refine (stored_apply (iblk m c 1 t) (iblk m c 2 t) (iblk m c 0 t) r s ch).trans ?_
  have h0 : ((cfg0.win 0).blk t).view.emb (ix4 (0 : Fin 1) r s ch) = ((cfg0.win 3).blk t).view.emb (ix4 (0 : Fin 1) r s ch) := by
    funext a; apply Fin.ext
    match a with
    | ⟨0, _⟩ => show win0_0.index t (0 : Fin 4) * 1 + 1 * 0 = win0_3.index t (0 : Fin 4) * 1 + 1 * 0; omega
    | ⟨1, _⟩ => show win0_0.index t (1 : Fin 4) * 128 + 1 * r.val = win0_3.index t (1 : Fin 4) * 128 + 1 * r.val; omega
    | ⟨2, _⟩ => show win0_0.index t (2 : Fin 4) * 256 + 1 * s.val = win0_3.index t (2 : Fin 4) * 256 + 1 * s.val; omega
    | ⟨3, _⟩ => show win0_0.index t (3 : Fin 4) * 32 + 1 * ch.val = win0_3.index t (3 : Fin 4) * 32 + 1 * ch.val; omega
  have h1 : ((cfg0.win 1).blk t).view.emb (ix3 (0 : Fin 1) r s)
      = ix3 ((((cfg0.win 3).blk t).view.emb (ix4 (0 : Fin 1) r s ch)) 0) ((((cfg0.win 3).blk t).view.emb (ix4 (0 : Fin 1) r s ch)) 1)
          ((((cfg0.win 3).blk t).view.emb (ix4 (0 : Fin 1) r s ch)) 2) := by
    funext a; apply Fin.ext
    match a with
    | ⟨0, _⟩ => show win0_1.index t (0 : Fin 3) * 1 + 1 * 0 = win0_3.index t (0 : Fin 4) * 1 + 1 * 0; omega
    | ⟨1, _⟩ => show win0_1.index t (1 : Fin 3) * 128 + 1 * r.val = win0_3.index t (1 : Fin 4) * 128 + 1 * r.val; omega
    | ⟨2, _⟩ => show win0_1.index t (2 : Fin 3) * 256 + 1 * s.val = win0_3.index t (2 : Fin 4) * 256 + 1 * s.val; omega
  have h2 : ((cfg0.win 2).blk t).view.emb (ix2 (0 : Fin 1) ch)
      = ix2 (0 : Fin 1) ((((cfg0.win 3).blk t).view.emb (ix4 (0 : Fin 1) r s ch)) 3) := by
    funext a; apply Fin.ext
    match a with
    | ⟨0, _⟩ => show win0_2.index t (0 : Fin 2) * 1 + 1 * 0 = 0; omega
    | ⟨1, _⟩ => show win0_2.index t (1 : Fin 2) * 32 + 1 * ch.val = win0_3.index t (3 : Fin 4) * 32 + 1 * ch.val; omega
  show edgeArr m c (((cfg0.win 0).blk t).view.emb (ix4 (0 : Fin 1) r s ch))
      + (((adjArr m c (((cfg0.win 1).blk t).view.emb (ix3 (0 : Fin 1) r s))).toInt : ℝ) : EReal)
        * rowArr m c (((cfg0.win 2).blk t).view.emb (ix2 (0 : Fin 1) ch))
    = whole (edgeArr m c) (adjArr m c) (rowArr m c) (((cfg0.win 3).blk t).view.emb (ix4 (0 : Fin 1) r s ch))
  rw [h0, h1, h2]
  rfl

/-- An index of the result is in point t's block when each coordinate is in the block's range on its axis. -/
theorem mem_blk (t : Fin cfg0.N) (i : S32x256x256x32.Idx) :
    i ∈ ((cfg0.win 3).blk t).view.set ↔ ∀ a : Fin 4, win0_3.index t a * S1x128x256x32.size a ≤ (i a).val
      ∧ (i a).val < win0_3.index t a * S1x128x256x32.size a + S1x128x256x32.size a := by
  show i ∈ ((View.whole main_v42).slice (win0_3.rect t)).set ↔ _
  rw [View.set_slice_whole, Rect.mem_set_unit]
  exact Iff.rfl

/-- Every index of the result is in the block of the point of its graph and of its source row's block of 128. -/
theorem cover (i : S32x256x256x32.Idx) :
    ∃ t : Fin cfg0.N, (cfg0.win 3).flush t = true ∧ i ∈ ((cfg0.win 3).blk t).view.set := by
  have hi0 : (i 0).val < 32 := (i 0).isLt
  have hi1 : (i 1).val < 256 := (i 1).isLt
  have hi2 : (i 2).val < 256 := (i 2).isLt
  have hi3 : (i 3).val < 32 := (i 3).isLt
  obtain ⟨t, ht⟩ := idx_onto ⟨(i 0).val, hi0⟩ ⟨(i 1).val / 128, by omega⟩
  have q0 : win0_3.index t (0 : Fin 4) = (i 0).val := congrFun ht 0
  have q1 : win0_3.index t (1 : Fin 4) = (i 1).val / 128 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 128 ≤ (i 1).val ∧ (i 1).val < win0_3.index t (1 : Fin 4) * 128 + 128; omega
  | ⟨2, _⟩ => show win0_3.index t (2 : Fin 4) * 256 ≤ (i 2).val ∧ (i 2).val < win0_3.index t (2 : Fin 4) * 256 + 256; omega
  | ⟨3, _⟩ => show win0_3.index t (3 : Fin 4) * 32 ≤ (i 3).val ∧ (i 3).val < win0_3.index t (3 : Fin 4) * 32 + 32; omega

/-- THE RESULT ARRAY after the run is the one function of the arrays the kernel finds. -/
theorem final (c : Dev nD) : (dats m 0 c).arrAt 3 cfg0.N = whole (edgeArr m c) (adjArr m c) (rowArr m c) :=
  (dats m 0 c).arrAt_eq_of_cover 3 _ (fun t _ => flushed_eq m c t) cover

/-- The run, read: the result array at that function, every argument as launched. -/
theorem run : θ_run defs (onTc (τ := τ) (main (F := Ideal))) ⟨m, fun _ => 0, ρ⟩ fun r => ∀ c : Dev nD,
      r.2.mem ((c : Thread nD τ).loc main_v42) = whole (edgeArr m c) (adjArr m c) (rowArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Whole

end
-- ==== Proof.LibNary3.lean ====
/-
  A general lemma about the host-operation builders: the result of an operation over a LITERAL family of THREE operand
  references (a three-piece concatenate), with each operand's contents read at its own reference, so that a fold of
  operation results goes on rewriting the operands' contents. The library states the same for four references.
-/
import Idealize.ShloMosaic.Lib.StableHlo.Run

namespace Idealize.ShloMosaic.StableHlo

open Idealize.ShloMosaic Idealize.SL.Sem

variable {τ : Topo} {sig : RefSig} {Val : EltTy → Type}

/-- The result of an operation over three literal operand references: its function applied to the three operands' contents. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, the form a single simplification pass over a fold uses. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo
-- ==== Proof.Found.lean ====
/-
  What the kernel finds in two of its arrays when it is launched, read off the host operations before it.

  The adjacency array is the result of the same chain of host operations, on the edge list and the node-to-graph vector,
  that the reference program applies: both programs slice the edge list, look up each edge's graph, subtract to local
  node indices, wrap negative indices, join the three index columns and scatter ones into a zero array. So the array
  the kernel finds is the reference's adjacency, as a function of the two integer arguments. The row array is row 1 of
  the embedding table, laid out as 1 by 32.
-/
import proofs.«417985_j46660524703963_1_alg».proof.Proof.FrameIdeal
import proofs.«417985_j46660524703963_1_alg».proof.Proof.Gen.ReferenceIdeal.Read
import proofs.«417985_j46660524703963_1_alg».proof.Proof.LibNary3
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Found

open Cert.KernelIdeal Cert.KernelIdeal.Gen Cert.KernelIdeal.Fr
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ)

set_option maxHeartbeats 4000000 in
/-- THE ADJACENCY THE KERNEL FINDS is the reference's adjacency of the edge list and the node-to-graph vector. -/
theorem adjacency_eq (c : Dev nD) :
    (V m c main_v38 : (⟨S32x256x256, .i32⟩ : BufTy).Contents (Elt F))
      = Cert.ReferenceIdeal.Read.val_main_v38 (F := F) (m ((c : Thread nD τ).loc main_arg2)) (m ((c : Thread nD τ).loc main_arg3)) := by
  dsimp only [V, hostOps0]
  simp (disch := decide) only [after_cons, after_nil,
    nullary_result', unary_result', binary_result', ternary_result', reshape_result', nary3_result',
    nullary_result_ne', unary_result_ne', binary_result_ne', ternary_result_ne', reshape_result_ne', nary_result_ne']
  rfl

set_option maxHeartbeats 4000000 in
/-- The row array the kernel finds, as operations on the embedding table: row 1 sliced out, flattened, laid out 1 by 32. -/
theorem row_eq (c : Dev nD) :
    (V m c main_v41 : (⟨S1x32, .f32⟩ : BufTy).Contents (Elt F))
      = shapeCast S1x32 (shapeCast S32 (extractStridedSlice S1x32 ![1, 0]
          (m ((c : Thread nD τ).loc main_arg1) : (⟨S2x32, .f32⟩ : BufTy).Contents (Elt F)) slices_S2x32_S1x32_1_0)
          shapeCasts_S1x32_S32) shapeCasts_S32_S1x32 := by
  dsimp only [V, hostOps0]
  simp (disch := decide) only [after_cons, after_nil,
    nullary_result', unary_result', binary_result', ternary_result', reshape_result', nary3_result',
    nullary_result_ne', unary_result_ne', binary_result_ne', ternary_result_ne', reshape_result_ne', nary_result_ne']
  rfl

/-- THE ROW THE KERNEL FINDS, at (0, ch), is the table's entry (1, ch). -/
theorem row_apply (c : Dev nD) (ch : Fin 32) :
    (V m c main_v41 : (⟨S1x32, .f32⟩ : BufTy).Contents (Elt F)) (ix2 (0 : Fin 1) ch)
      = (m ((c : Thread nD τ).loc main_arg1) : (⟨S2x32, .f32⟩ : BufTy).Contents (Elt F)) (ix2 (1 : Fin 2) ch) := by
  rw [row_eq, shapeCast_a_1a_apply, shapeCast_1a_a_apply]
  exact extractStridedSlice_apply ![1, 0] _ slices_S2x32_S1x32_1_0 (ix2 (0 : Fin 1) ch) (ix2 (1 : Fin 2) ch) (fun a => match a with
    | ⟨0, _⟩ => rfl
    | ⟨1, _⟩ => by show ch.val = 0 + ch.val; omega)

end Cert.KernelIdeal.Found

end
-- ==== Proof.Spec.lean ====
/-
  What the ring-edge encoder computes, as one function of its arrays. Every edge carries a feature vector of 32
  numbers; the ring adjacency is an integer array over (graph, source node, target node); the embedding table has two
  rows. The result is the edge's feature vector plus the adjacency entry, read as an integer, times row 1 of the table:
  where the adjacency holds a one the row is added, where it holds a zero nothing is.
-/
import Idealize.ShloMosaic.PureOps.Ideal
import Idealize.ShloMosaic.Lib.ValueIdx

noncomputable section

namespace Cert.RingEdge

open Idealize.ShloMosaic Idealize.ShloMosaic.ValueIdx

/-- Edge features: 32 graphs, 256 by 256 node pairs, 32 channels. -/
abbrev SEdge : Shape := ⟨4, ![32, 256, 256, 32]⟩
/-- The adjacency: 32 graphs, 256 by 256 node pairs. -/
abbrev SAdj : Shape := ⟨3, ![32, 256, 256]⟩
/-- The embedding table: 2 rows of 32 channels. -/
abbrev STab : Shape := ⟨2, ![2, 32]⟩

/-- The encoded edge features: at (g, s, t, ch), the edge feature plus adjacency (g, s, t), as an integer, times the
    table's entry (1, ch). -/
def encoded (edge : SEdge.Idx → EReal) (adj : SAdj.Idx → BitVec 32) (tab : STab.Idx → EReal) : SEdge.Idx → EReal :=
  fun i => edge i + (((adj (ix3 (i 0) (i 1) (i 2))).toInt : ℝ) : EReal) * tab (ix2 (1 : Fin 2) (i 3))

theorem encoded_apply (edge : SEdge.Idx → EReal) (adj : SAdj.Idx → BitVec 32) (tab : STab.Idx → EReal)
    (g : Fin 32) (s t : Fin 256) (ch : Fin 32) :
    encoded edge adj tab (ix4 g s t ch)
      = edge (ix4 g s t ch) + (((adj (ix3 g s t)).toInt : ℝ) : EReal) * tab (ix2 (1 : Fin 2) ch) := rfl

/-- Where the adjacency entry is zero the term vanishes, whatever the table holds. -/
theorem zero_entry_mul (y : EReal) : ((((0#32 : BitVec 32).toInt : ℝ) : EReal)) * y = 0 := by
  rw [show (0#32 : BitVec 32).toInt = 0 from by decide]
  simp

/-- Where the adjacency entry is one the term is the table's entry. -/
theorem one_entry_mul (y : EReal) : ((((1#32 : BitVec 32).toInt : ℝ) : EReal)) * y = y := by
  rw [show (1#32 : BitVec 32).toInt = 1 from by decide]
  simp

end Cert.RingEdge

end
-- ==== Proof.Bridge.lean ====
/-
  The kernel program's result is the encoded edge features of its arguments. The run leaves the result array at the
  edge features plus adjacency times row, over the three arrays the kernel finds; the edge features it finds are the
  first argument, the adjacency it finds is the reference's adjacency of the edge list and the node-to-graph vector,
  and the row it finds, at (0, ch), is the table's entry (1, ch).
-/
import proofs.«417985_j46660524703963_1_alg».proof.Proof.Whole
import proofs.«417985_j46660524703963_1_alg».proof.Proof.Found
import proofs.«417985_j46660524703963_1_alg».proof.Proof.Spec

noncomputable section

namespace Cert.KernelIdeal.Bridge

open Cert.KernelIdeal Cert.KernelIdeal.Gen Cert.KernelIdeal.Fr Cert.KernelIdeal.Whole Cert.KernelIdeal.Found
open Idealize.ShloMosaic Idealize.ShloMosaic.TcCoe Idealize.SL.Sem Idealize.ShloMosaic.ValueIdx

variable (m : (ℓ : Loc nD τ sig) → Buf (Elt Ideal) ℓ) (ρ : Dev nD → PrngReg)

/-- The function of the found arrays is the encoding of the arguments. -/
theorem whole_eq_encoded (c : Dev nD) :
    whole (edgeArr m c) (adjArr m c) (rowArr m c)
      = Cert.RingEdge.encoded (m ((c : Thread nD τ).loc main_arg0))
          (Cert.ReferenceIdeal.Read.val_main_v38 (F := Ideal) (m ((c : Thread nD τ).loc main_arg2)) (m ((c : Thread nD τ).loc main_arg3)))
          (m ((c : Thread nD τ).loc main_arg1)) := by
  funext i
  have he : edgeArr m c i = (m ((c : Thread nD τ).loc main_arg0) : (⟨S32x256x256x32, .f32⟩ : BufTy).Contents (Elt Ideal)) i :=
    congrFun (V_main_arg0 m c) i
  have ha : adjArr m c (ix3 (i 0) (i 1) (i 2))
      = Cert.ReferenceIdeal.Read.val_main_v38 (F := Ideal) (m ((c : Thread nD τ).loc main_arg2)) (m ((c : Thread nD τ).loc main_arg3))
          (ix3 (i 0) (i 1) (i 2)) :=
    congrFun (adjacency_eq m c) _
  have hr : rowArr m c (ix2 (0 : Fin 1) (i 3))
      = (m ((c : Thread nD τ).loc main_arg1) : (⟨S2x32, .f32⟩ : BufTy).Contents (Elt Ideal)) (ix2 (1 : Fin 2) (i 3)) :=
    row_apply m c (i 3)
  show edgeArr m c i + (((adjArr m c (ix3 (i 0) (i 1) (i 2))).toInt : ℝ) : EReal) * rowArr m c (ix2 (0 : Fin 1) (i 3)) = _
  rw [he, ha, hr]
  rfl

/-- THE KERNEL PROGRAM'S RUN: the result is the encoding of the arguments, and the arguments are as launched. -/
theorem run : θ_run defs (onTc (τ := τ) (main (F := Ideal))) ⟨m, fun _ => 0, ρ⟩ fun r => ∀ c : Dev nD,
      r.2.mem ((c : Thread nD τ).loc main_v42)
        = Cert.RingEdge.encoded (m ((c : Thread nD τ).loc main_arg0))
            (Cert.ReferenceIdeal.Read.val_main_v38 (F := Ideal) (m ((c : Thread nD τ).loc main_arg2)) (m ((c : Thread nD τ).loc main_arg3)))
            (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (whole_eq_encoded m c), (h c).2⟩) (Cert.KernelIdeal.Whole.run m ρ)

end Cert.KernelIdeal.Bridge

end
-- ==== Proof.RefRead.lean ====
/-
  The reference program's run and its operations read at an index.
-/
import proofs.«417985_j46660524703963_1_alg».proof.Proof.Gen.ReferenceIdeal.Run
import proofs.«417985_j46660524703963_1_alg».proof.Proof.Gen.ReferenceIdeal.Read
-- ==== Proof.LibScatterSet.lean ====
/-
  THE HOST'S REPLACING SCATTER READ AT AN INDEX.

  A scatter is the left fold, over the update indices in row-major order, of the step "the update index lands at an
  operand index (its start, read signed off the scatter indices, plus its window coordinate, when that is inside the
  operand) and the body's value of the element there and the update's element is put there". When the body returns
  the update's element the step overwrites. So at an operand index that no update lands at the result is the
  operand's element, and at an operand index that updates land at, all carrying one element, the result is that
  element. In particular, when the update indices land one to one (an injective map e), the result at e j is the
  update's element at j.

  The last part reads the scatter that PADS: every start zero and the update's axes the operand's axes in order, so
  that the updates fill the operand's corner at the origin; the result is the update inside that corner and the
  operand outside it (rank two and rank three).

  Nothing here evaluates a size or a dimension number: the shapes, the dimension numbers and the element type are
  variables.
-/
import Idealize.ShloMosaic.PureOps.ShapeOps
import Idealize.ShloMosaic.PureOps.Dims
import Idealize.ShloMosaic.Lib.ValueIdx

namespace Idealize.ShloMosaic.ScatterSet

open Idealize.ShloMosaic Idealize.ShloMosaic.ValueIdx

/-! ## A left fold that overwrites one place at a time -/

section Fold
variable {ι κ α : Type}

/-- Steps that leave place i alone leave the fold's value there alone. -/
theorem foldl_apply_of_untouched (st : (κ → α) → ι → (κ → α)) (i : κ) :
    ∀ (l : List ι) (x : κ → α), (∀ r, ∀ n ∈ l, st r n i = r i) → l.foldl st x i = x i
  | [], _, _ => rfl
  | a :: t, x, h => by
    rw [List.foldl_cons, foldl_apply_of_untouched st i t _ fun r n hn => h r n (List.mem_cons_of_mem _ hn)]
    exact h x a List.mem_cons_self

/-- If every step either leaves place i alone or puts the value w there, a fold that starts with w at i ends
    with w at i. -/
theorem foldl_apply_of_stays (st : (κ → α) → ι → (κ → α)) (i : κ) (w : α) :
    ∀ (l : List ι) (x : κ → α), (∀ r, ∀ n ∈ l, st r n i = r i ∨ st r n i = w) → x i = w → l.foldl st x i = w
  | [], _, _, hx => hx
  | a :: t, x, h, hx => by
    rw [List.foldl_cons]
    refine foldl_apply_of_stays st i w t _ (fun r n hn => h r n (List.mem_cons_of_mem _ hn)) ?_
    rcases h x a List.mem_cons_self with e | e
    · rw [e, hx]
    · exact e

/-- If some step of the list puts w at place i, and every step leaves i alone or puts w there, the fold ends with
    w at i. -/
theorem foldl_apply_of_written (st : (κ → α) → ι → (κ → α)) (i : κ) (w : α) (l : List ι) (x : κ → α)
    (n₀ : ι) (hn₀ : n₀ ∈ l) (hw : ∀ r, st r n₀ i = w) (h : ∀ r, ∀ n ∈ l, st r n i = r i ∨ st r n i = w) :
    l.foldl st x i = w := by
  obtain ⟨l₁, l₂, rfl⟩ := List.append_of_mem hn₀
  rw [List.foldl_append, List.foldl_cons]
  exact foldl_apply_of_stays st i w l₂ _
    (fun r n hn => h r n (List.mem_append_right _ (List.mem_cons_of_mem _ hn))) (hw _)

end Fold

/-! ## The scatter -/

section Scatter
variable {s si u : Shape} {w : Nat} {α : Type} (d : ScatterDims s si u)

/-- An update index whose start plus window coordinate is, on every axis, the coordinate of the operand index k
    lands at k. -/
theorem resultIdx?_eq_some_of_coords (j : u.Idx) (idx : IVec si w) (k : s.Idx)
    (h : ∀ a, d.start j idx a + (d.window j a : Int) = ((k a).val : Int)) : d.resultIdx? j idx = some k := by
  unfold ScatterDims.resultIdx?
  rw [dif_pos fun a => by have := h a; have := (k a).isLt; omega]
  refine congrArg some (funext fun a => Fin.ext ?_)
  show (d.start j idx a + (d.window j a : Int)).toNat = (k a).val
  have := h a
  omega

/-- Where every scatter index reads zero, every start is zero. -/
theorem start_eq_zero_of_zero (j : u.Idx) (idx : IVec si w) (hz : ∀ k, (idx k).toInt = 0) (a : Fin s.rank) :
    d.start j idx a = 0 := by
  unfold ScatterDims.start
  split
  · exact hz _
  · rfl

/-- On an operand axis that is not inserted, the window coordinate is the update index's coordinate on the window
    axis in that axis's position. -/
theorem window_of_mem (j : u.Idx) (a : Fin s.rank) (ha : a ∈ d.sKept) :
    d.window j a
      = (j (d.updateWindowDims[d.sKept.idxOf a]'(by rw [d.window_length]; exact List.idxOf_lt_length_iff.2 ha))).val := by
  unfold ScatterDims.window
  rw [dif_pos ha]

/-- One step of the scatter's fold. -/
abbrev step (f : α → α → α) (idx : IVec si w) (upd : u.Idx → α) (r : s.Idx → α) (n : Fin u.numel) : s.Idx → α :=
  match d.resultIdx? (u.rowMajor.symm n) idx with
  | some i => fun i' => if i' = i then f (r i) (upd (u.rowMajor.symm n)) else r i'
  | none => r

theorem scatter_eq_foldl (f : α → α → α) (x : s.Idx → α) (idx : IVec si w) (upd : u.Idx → α) :
    Host.scatter d f x idx upd = (List.finRange u.numel).foldl (step d f idx upd) x := rfl

/-- A step whose update does not land at i leaves i alone. -/
theorem step_apply_of_ne (f : α → α → α) (idx : IVec si w) (upd : u.Idx → α) (r : s.Idx → α) (n : Fin u.numel)
    (i : s.Idx) (h : d.resultIdx? (u.rowMajor.symm n) idx ≠ some i) : step d f idx upd r n i = r i := by
  unfold step
  generalize d.resultIdx? (u.rowMajor.symm n) idx = o at h
  cases o with
  | none => rfl
  | some k =>
    show (if i = k then f (r k) (upd (u.rowMajor.symm n)) else r i) = r i
    exact if_neg fun e => h (by rw [e])

/-- A replacing step whose update lands at i puts the update there. -/
theorem step_apply_of_eq (idx : IVec si w) (upd : u.Idx → α) (r : s.Idx → α) (n : Fin u.numel)
    (i : s.Idx) (h : d.resultIdx? (u.rowMajor.symm n) idx = some i) :
    step d (fun _ b => b) idx upd r n i = upd (u.rowMajor.symm n) := by
  unfold step
  rw [h]
  exact if_pos rfl

/-- THE SCATTER OFF THE UPDATES: an operand index no update lands at keeps the operand's element. -/
theorem scatter_apply_of_missed (f : α → α → α) (x : s.Idx → α) (idx : IVec si w) (upd : u.Idx → α) (i : s.Idx)
    (h : ∀ j, d.resultIdx? j idx ≠ some i) : Host.scatter d f x idx upd i = x i := by
  rw [scatter_eq_foldl]
  exact foldl_apply_of_untouched _ i _ x fun r n _ => step_apply_of_ne d f idx upd r n i (h _)

/-- THE REPLACING SCATTER ON AN UPDATE: if the update index j₀ lands at i, and every update index that lands at i
    carries the same element as j₀, the result at i is that element. -/
theorem scatter_set_apply_of_landed (x : s.Idx → α) (idx : IVec si w) (upd : u.Idx → α) (i : s.Idx) (j₀ : u.Idx)
    (h₀ : d.resultIdx? j₀ idx = some i) (hsame : ∀ j, d.resultIdx? j idx = some i → upd j = upd j₀) :
    Host.scatter d (fun _ b => b) x idx upd i = upd j₀ := by
  rw [scatter_eq_foldl]
  refine foldl_apply_of_written _ i (upd j₀) _ x (u.rowMajor j₀) (List.mem_finRange _) (fun r => ?_) (fun r n _ => ?_)
  · rw [step_apply_of_eq d idx upd r _ i (by rw [Equiv.symm_apply_apply]; exact h₀), Equiv.symm_apply_apply]
  · by_cases hn : d.resultIdx? (u.rowMajor.symm n) idx = some i
    · exact Or.inr (by rw [step_apply_of_eq d idx upd r n i hn]; exact hsame _ hn)
    · exact Or.inl (step_apply_of_ne d _ idx upd r n i hn)

/-- The same for updates that land one to one: where e says where each update index lands and e is injective, the
    result at e j is the update at j, and an operand index outside e's range keeps the operand's element. -/
theorem scatter_set_apply_emb (x : s.Idx → α) (idx : IVec si w) (upd : u.Idx → α) (e : u.Idx → s.Idx)
    (he : ∀ j, d.resultIdx? j idx = some (e j)) (hinj : Function.Injective e) (j : u.Idx) :
    Host.scatter d (fun _ b => b) x idx upd (e j) = upd j :=
  scatter_set_apply_of_landed d x idx upd (e j) j (he j) fun j' hj' =>
    congrArg upd (hinj (Option.some.inj ((he j').symm.trans hj')))

theorem scatter_apply_off_emb (f : α → α → α) (x : s.Idx → α) (idx : IVec si w) (upd : u.Idx → α) (e : u.Idx → s.Idx)
    (he : ∀ j, d.resultIdx? j idx = some (e j)) (i : s.Idx) (hi : ∀ j, e j ≠ i) :
    Host.scatter d f x idx upd i = x i :=
  scatter_apply_of_missed d f x idx upd i fun j hj => hi j (Option.some.inj ((he j).symm.trans hj))

end Scatter

/-! ## A window scatter at start zero pads

When every start is zero and the update's axes are the operand's axes in order (the window coordinate on operand axis
a is the update index's coordinate on axis a), the update index j lands at the operand index with j's coordinates:
the updates fill the corner of the operand at the origin, one to one. So the replacing scatter is the update there
and the operand elsewhere. Stated for operands of rank two and of rank three. -/

section Pad2
variable {P0 P1 N0 N1 : Nat} {si : Shape} {w : Nat} {α : Type}
  (d : ScatterDims (⟨2, ![P0, P1]⟩ : Shape) si (⟨2, ![N0, N1]⟩ : Shape))

/-- An index of the smaller rectangle as the index of the larger one with the same coordinates. -/
def emb2 (h0 : N0 ≤ P0) (h1 : N1 ≤ P1) (j : (⟨2, ![N0, N1]⟩ : Shape).Idx) : (⟨2, ![P0, P1]⟩ : Shape).Idx :=
  ix2 ⟨(j 0).val, Nat.lt_of_lt_of_le (j 0).isLt h0⟩ ⟨(j 1).val, Nat.lt_of_lt_of_le (j 1).isLt h1⟩

theorem emb2_injective (h0 : N0 ≤ P0) (h1 : N1 ≤ P1) : Function.Injective (emb2 h0 h1) := fun j j' h => by
  rw [eq_ix2 j, eq_ix2 j']
  have e0 : ((emb2 h0 h1 j) 0).val = ((emb2 h0 h1 j') 0).val := by rw [h]
  have e1 : ((emb2 h0 h1 j) 1).val = ((emb2 h0 h1 j') 1).val := by rw [h]
  rw [Fin.ext (show (j 0).val = (j' 0).val from e0), Fin.ext (show (j 1).val = (j' 1).val from e1)]

theorem lands2 (h0 : N0 ≤ P0) (h1 : N1 ≤ P1) (idx : IVec si w) (hst : ∀ j a, d.start j idx a = 0)
    (hw0 : ∀ j, d.window j 0 = (j 0).val) (hw1 : ∀ j, d.window j 1 = (j 1).val) (j : (⟨2, ![N0, N1]⟩ : Shape).Idx) :
    d.resultIdx? j idx = some (emb2 h0 h1 j) := by
  refine resultIdx?_eq_some_of_coords d j idx _ fun a => ?_
  rw [hst j a]
  match a with
  | ⟨0, _⟩ =>
    show (0 : Int) + ((d.window j 0 : ℕ) : Int) = _
    rw [hw0, Int.zero_add]; rfl
  | ⟨1, _⟩ =>
    show (0 : Int) + ((d.window j 1 : ℕ) : Int) = _
    rw [hw1, Int.zero_add]; rfl

/-- THE PADDING SCATTER OF RANK TWO READ AT AN INDEX: the update inside its rectangle, the operand outside. -/
theorem scatter_set_pad2 (h0 : N0 ≤ P0) (h1 : N1 ≤ P1) (x : (⟨2, ![P0, P1]⟩ : Shape).Idx → α) (idx : IVec si w)
    (upd : (⟨2, ![N0, N1]⟩ : Shape).Idx → α) (hst : ∀ j a, d.start j idx a = 0)
    (hw0 : ∀ j, d.window j 0 = (j 0).val) (hw1 : ∀ j, d.window j 1 = (j 1).val) (i : (⟨2, ![P0, P1]⟩ : Shape).Idx) :
    Host.scatter d (fun _ b => b) x idx upd i
      = if h : (i 0).val < N0 ∧ (i 1).val < N1 then upd (ix2 ⟨(i 0).val, h.1⟩ ⟨(i 1).val, h.2⟩) else x i := by
  by_cases h : (i 0).val < N0 ∧ (i 1).val < N1
  · rw [dif_pos h]
    have hi : i = emb2 h0 h1 (ix2 ⟨(i 0).val, h.1⟩ ⟨(i 1).val, h.2⟩) := (eq_ix2 i).trans rfl
    exact (congrArg (Host.scatter d (fun _ b => b) x idx upd) hi).trans
      (scatter_set_apply_emb d x idx upd (emb2 h0 h1) (lands2 d h0 h1 idx hst hw0 hw1) (emb2_injective h0 h1) _)
  · rw [dif_neg h]
    exact scatter_apply_off_emb d _ x idx upd (emb2 h0 h1) (lands2 d h0 h1 idx hst hw0 hw1) i fun j hj =>
      h (by rw [← hj]; exact ⟨(j 0).isLt, (j 1).isLt⟩)

end Pad2

section Pad3
variable {P0 P1 P2 N0 N1 N2 : Nat} {si : Shape} {w : Nat} {α : Type}
  (d : ScatterDims (⟨3, ![P0, P1, P2]⟩ : Shape) si (⟨3, ![N0, N1, N2]⟩ : Shape))

/-- An index of the smaller box as the index of the larger one with the same coordinates. -/
def emb3 (h0 : N0 ≤ P0) (h1 : N1 ≤ P1) (h2 : N2 ≤ P2) (j : (⟨3, ![N0, N1, N2]⟩ : Shape).Idx) :
    (⟨3, ![P0, P1, P2]⟩ : Shape).Idx :=
  ix3 ⟨(j 0).val, Nat.lt_of_lt_of_le (j 0).isLt h0⟩ ⟨(j 1).val, Nat.lt_of_lt_of_le (j 1).isLt h1⟩
    ⟨(j 2).val, Nat.lt_of_lt_of_le (j 2).isLt h2⟩

theorem emb3_injective (h0 : N0 ≤ P0) (h1 : N1 ≤ P1) (h2 : N2 ≤ P2) : Function.Injective (emb3 h0 h1 h2) :=
  fun j j' h => by
  rw [eq_ix3 j, eq_ix3 j']
  have e0 : ((emb3 h0 h1 h2 j) 0).val = ((emb3 h0 h1 h2 j') 0).val := by rw [h]
  have e1 : ((emb3 h0 h1 h2 j) 1).val = ((emb3 h0 h1 h2 j') 1).val := by rw [h]
  have e2 : ((emb3 h0 h1 h2 j) 2).val = ((emb3 h0 h1 h2 j') 2).val := by rw [h]
  rw [Fin.ext (show (j 0).val = (j' 0).val from e0), Fin.ext (show (j 1).val = (j' 1).val from e1),
    Fin.ext (show (j 2).val = (j' 2).val from e2)]

theorem lands3 (h0 : N0 ≤ P0) (h1 : N1 ≤ P1) (h2 : N2 ≤ P2) (idx : IVec si w) (hst : ∀ j a, d.start j idx a = 0)
    (hw0 : ∀ j, d.window j 0 = (j 0).val) (hw1 : ∀ j, d.window j 1 = (j 1).val)
    (hw2 : ∀ j, d.window j 2 = (j 2).val) (j : (⟨3, ![N0, N1, N2]⟩ : Shape).Idx) :
    d.resultIdx? j idx = some (emb3 h0 h1 h2 j) := by
  refine resultIdx?_eq_some_of_coords d j idx _ fun a => ?_
  rw [hst j a]
  match a with
  | ⟨0, _⟩ =>
    show (0 : Int) + ((d.window j 0 : ℕ) : Int) = _
    rw [hw0, Int.zero_add]; rfl
  | ⟨1, _⟩ =>
    show (0 : Int) + ((d.window j 1 : ℕ) : Int) = _
    rw [hw1, Int.zero_add]; rfl
  | ⟨2, _⟩ =>
    show (0 : Int) + ((d.window j 2 : ℕ) : Int) = _
    rw [hw2, Int.zero_add]; rfl

/-- THE PADDING SCATTER OF RANK THREE READ AT AN INDEX: the update inside its box, the operand outside. -/
theorem scatter_set_pad3 (h0 : N0 ≤ P0) (h1 : N1 ≤ P1) (h2 : N2 ≤ P2) (x : (⟨3, ![P0, P1, P2]⟩ : Shape).Idx → α)
    (idx : IVec si w) (upd : (⟨3, ![N0, N1, N2]⟩ : Shape).Idx → α) (hst : ∀ j a, d.start j idx a = 0)
    (hw0 : ∀ j, d.window j 0 = (j 0).val) (hw1 : ∀ j, d.window j 1 = (j 1).val)
    (hw2 : ∀ j, d.window j 2 = (j 2).val) (i : (⟨3, ![P0, P1, P2]⟩ : Shape).Idx) :
    Host.scatter d (fun _ b => b) x idx upd i
      = if h : (i 0).val < N0 ∧ (i 1).val < N1 ∧ (i 2).val < N2 then
          upd (ix3 ⟨(i 0).val, h.1⟩ ⟨(i 1).val, h.2.1⟩ ⟨(i 2).val, h.2.2⟩)
        else x i := by
  by_cases h : (i 0).val < N0 ∧ (i 1).val < N1 ∧ (i 2).val < N2
  · rw [dif_pos h]
    have hi : i = emb3 h0 h1 h2 (ix3 ⟨(i 0).val, h.1⟩ ⟨(i 1).val, h.2.1⟩ ⟨(i 2).val, h.2.2⟩) := (eq_ix3 i).trans rfl
    exact (congrArg (Host.scatter d (fun _ b => b) x idx upd) hi).trans
      (scatter_set_apply_emb d x idx upd (emb3 h0 h1 h2) (lands3 d h0 h1 h2 idx hst hw0 hw1 hw2)
        (emb3_injective h0 h1 h2) _)
  · rw [dif_neg h]
    exact scatter_apply_off_emb d _ x idx upd (emb3 h0 h1 h2) (lands3 d h0 h1 h2 idx hst hw0 hw1 hw2) i fun j hj =>
      h (by rw [← hj]; exact ⟨(j 0).isLt, (j 1).isLt, (j 2).isLt⟩)

end Pad3

end Idealize.ShloMosaic.ScatterSet
-- ==== Proof.LibGatherRows3.lean ====
/-
  THE HOST'S GATHER OF WHOLE ROWS OVER THREE BATCH AXES, READ AT AN INDEX: operand [P, C], start indices
  [B0, B1, B2, 1] with the index vector on axis 3, result [B0, B1, B2, C]; offset axes [3], collapsed slice axes [0],
  start index map [0], slice sizes [1, C], no batching axes. Result element (g, s, t, ch) is the operand at row
  idx[g, s, t, 0], read signed and clamped into [0, P - 1], and column ch. The extents and the index width are
  variables; the dimension numbers are known only through the equations on their lists.
-/
import Idealize.ShloMosaic.PureOps.ShapeOps
import Idealize.ShloMosaic.Lib.ValueIdx

namespace Idealize.ShloMosaic.GatherRows3

open Idealize.ShloMosaic Idealize.ShloMosaic.ValueIdx

/-! ## The general gather: the start-indices index and the offset coordinate, axis by axis, with any number of batch
    and offset axes -/

section General
variable {s si t : Shape} (d : GatherDims s si t)

/-- Off the index vector's axis, the start-indices index has on axis b the result index's coordinate on the batch axis
    that stands, among the result's batch axes, where b stands among the start indices' axes but the index vector's. -/
theorem siIdx_val_of_ne_at (j : t.Idx) (c : Fin d.startIndexMap.length) (b : Fin si.rank)
    (hb : ¬ b.val = d.indexVectorDim) (a : Fin t.rank) (ha : d.batchDims[d.siKept.idxOf b]? = some a) :
    (d.siIdx j c b).val = (j a).val := by
  unfold GatherDims.siIdx
  rw [dif_neg hb]
  unfold GatherDims.siCoord
  obtain ⟨_, e⟩ := List.getElem?_eq_some_iff.1 ha
  exact congrArg (fun e => (j e).val) e

/-- On the index vector's axis the start-indices index has the component's number. -/
theorem siIdx_val_of_eq_at (j : t.Idx) (c : Fin d.startIndexMap.length) (b : Fin si.rank)
    (hb : b.val = d.indexVectorDim) : (d.siIdx j c b).val = c.val := by
  unfold GatherDims.siIdx
  rw [dif_pos hb]

/-- On a kept operand axis a, the offset coordinate is the result index's coordinate on the offset axis that stands,
    among the result's offset axes, where a stands among the operand's kept axes. -/
theorem offCoord_at (j : t.Idx) (a : Fin s.rank) (ha : a ∈ d.sKept) (b : Fin t.rank)
    (hb : d.offsetDims[d.sKept.idxOf a]? = some b) : d.offCoord j a = (j b).val := by
  unfold GatherDims.offCoord
  rw [dif_pos ha]
  obtain ⟨_, e⟩ := List.getElem?_eq_some_iff.1 hb
  exact congrArg (fun e => (j e).val) e

end General

/-! ## Operand [P, C], start indices [B0, B1, B2, 1], result [B0, B1, B2, C] -/

/-- THE GATHER READ AT (g, s, t, ch): the operand at the clamped start row and the same column. -/
theorem gather_rows3_apply {α : Type} {P C B0 B1 B2 w : Nat} (hP : 0 < P)
    (d : GatherDims (⟨2, ![P, C]⟩ : Shape) (⟨4, ![B0, B1, B2, 1]⟩ : Shape) (⟨4, ![B0, B1, B2, C]⟩ : Shape))
    (hod : d.offsetDims = [3]) (hcs : d.collapsedSliceDims = [0]) (hob : d.operandBatchingDims = [])
    (hsm : d.startIndexMap = [0]) (hiv : d.indexVectorDim = 3) (hss : d.sliceSizes = ![1, C])
    (x : (⟨2, ![P, C]⟩ : Shape).Idx → α) (idx : IVec (⟨4, ![B0, B1, B2, 1]⟩ : Shape) w)
    (g : Fin B0) (s : Fin B1) (t : Fin B2) (ch : Fin C) :
    Host.gather d x idx (ix4 g s t ch)
      = x (ix2 (⟨min (idx (ix4 g s t (0 : Fin 1))).toInt.toNat (P - 1), by omega⟩ : Fin P) ch) := by
  have h10 : ¬ (1 : Fin 2) = 0 := fun h => absurd (congrArg Fin.val h) Nat.one_ne_zero
  -- no operand axis is a batching axis
  have hnb : ∀ a : Fin 2, a ∉ d.operandBatchingDims := fun a h => by rw [hob] at h; exact List.not_mem_nil h
  -- axis 0 is the one start axis and is collapsed; axis 1 is the one kept axis
  have h0mem : (0 : Fin 2) ∈ d.startIndexMap := by rw [hsm]; exact List.mem_singleton.2 rfl
  have h1nmem : (1 : Fin 2) ∉ d.startIndexMap := by rw [hsm]; exact fun h => h10 (List.mem_singleton.1 h)
  have h0k : (0 : Fin 2) ∉ d.sKept := fun h =>
    ((d.mem_sKept 0).1 h).1 (by rw [hcs]; exact List.mem_singleton.2 rfl)
  have h1k : (1 : Fin 2) ∈ d.sKept :=
    (d.mem_sKept 1).2 ⟨by rw [hcs]; exact fun h => h10 (List.mem_singleton.1 h), hnb 1⟩
  -- the result's batch axes are 0, 1, 2, and so are the start indices' axes but the index vector's
  have hbd : d.batchDims = [0, 1, 2] := by
    show Shape.kept _ d.offsetDims = [0, 1, 2]
    rw [hod]; rfl
  have hsK : d.sKept = [1] := by
    show Shape.kept _ (d.collapsedSliceDims ++ d.operandBatchingDims) = [1]
    rw [hcs, hob]; rfl
  have hsk : d.siKept = [0, 1, 2] := by
    show (List.finRange 4).filter (fun b => decide (b.val ≠ d.indexVectorDim)) = [0, 1, 2]
    rw [hiv]; rfl
  -- the start-indices index of (g, s, t, ch) is [g, s, t, 0], whatever the component
  have hsi : ∀ c : Fin d.startIndexMap.length, d.siIdx (ix4 g s t ch) c = ix4 g s t (0 : Fin 1) := by
    intro c
    funext b
    refine Fin.ext ?_
    match b with
    | ⟨0, hb⟩ =>
      rw [siIdx_val_of_ne_at d (ix4 g s t ch) c ⟨0, hb⟩ (by rw [hiv]; show ¬ (0 : Nat) = 3; omega) 0 (by rw [hsk, hbd]; rfl)]
      rfl
    | ⟨1, hb⟩ =>
      rw [siIdx_val_of_ne_at d (ix4 g s t ch) c ⟨1, hb⟩ (by rw [hiv]; show ¬ (1 : Nat) = 3; omega) 1 (by rw [hsk, hbd]; rfl)]
      rfl
    | ⟨2, hb⟩ =>
      rw [siIdx_val_of_ne_at d (ix4 g s t ch) c ⟨2, hb⟩ (by rw [hiv]; show ¬ (2 : Nat) = 3; omega) 2 (by rw [hsk, hbd]; rfl)]
      rfl
    | ⟨3, hb⟩ =>
      have h1 : (d.siIdx (ix4 g s t ch) c ⟨3, hb⟩).val < 1 := (d.siIdx (ix4 g s t ch) c ⟨3, hb⟩).isLt
      show (d.siIdx (ix4 g s t ch) c ⟨3, hb⟩).val = 0
      omega
  unfold Host.gather
  congr 1
  funext a
  refine Fin.ext ?_
  match a with
  | ⟨0, _⟩ =>
    show d.start (ix4 g s t ch) idx 0 + d.batchCoord (ix4 g s t ch) 0 + d.offCoord (ix4 g s t ch) 0
      = min (idx (ix4 g s t (0 : Fin 1))).toInt.toNat (P - 1)
    rw [d.batchCoord_eq_zero _ _ (hnb 0), d.offCoord_eq_zero _ _ h0k]
    simp only [Nat.add_zero]
    unfold GatherDims.start
    rw [dif_pos h0mem, hsi, hss]
    rfl
  | ⟨1, _⟩ =>
    show d.start (ix4 g s t ch) idx 1 + d.batchCoord (ix4 g s t ch) 1 + d.offCoord (ix4 g s t ch) 1 = ch.val
    rw [d.batchCoord_eq_zero _ _ (hnb 1), offCoord_at d _ _ h1k 3 (by rw [hsK, hod]; rfl)]
    simp only [Nat.add_zero]
    unfold GatherDims.start
    rw [dif_neg h1nmem, Nat.zero_add]
    rfl

end Idealize.ShloMosaic.GatherRows3
-- ==== Proof.RefValue.lean ====
/-
  THE REFERENCE'S RESULT AS ONE FUNCTION OF ITS ARRAYS. The adjacency is a replacing scatter of ones into zeros, so
  each of its entries is 0 or 1 wherever the updates land; the wrap of negative indices therefore leaves it alone.
  The table is the embedding table with row 0 replaced by zeros. The gather of whole rows of that table at the
  adjacency's entries reads, at (g, s, t, ch), zero where the adjacency holds 0 and the table's entry (1, ch) where
  it holds 1. Added to the edge features this is the encoded edge features.
-/
import proofs.«417985_j46660524703963_1_alg».proof.Proof.RefRead
import proofs.«417985_j46660524703963_1_alg».proof.Proof.Spec
import proofs.«417985_j46660524703963_1_alg».proof.Proof.LibScatterSet
import proofs.«417985_j46660524703963_1_alg».proof.Proof.LibGatherRows3
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic
  Idealize.ShloMosaic.ValueIdx Idealize.ShloMosaic.ScatterSet Idealize.ShloMosaic.GatherRows3

/-! ## The adjacency: every entry is 0 or 1 -/

/-- Every update of the adjacency's scatter is the word 1. -/
theorem ones_apply (j : S32768.Idx) : val_main_v37 (F := Ideal) j = 1#32 :=
  (val_main_v37_apply (F := Ideal) j).trans (val_main_c_10_apply (F := Ideal) _)

/-- Every element of the adjacency's operand is the word 0. -/
theorem zeros_apply (j : S32x256x256.Idx) : val_main_v17 (F := Ideal) j = 0#32 :=
  (val_main_v17_apply (F := Ideal) j).trans (val_main_c_3_apply (F := Ideal) _)

/-- An entry of the adjacency is 1 where some update lands and 0 where none does, whatever the scatter indices. -/
theorem adj_entry (x2 : (⟨S2x32768, .i32⟩ : BufTy).Contents (Elt Ideal)) (x3 : (⟨S8192, .i32⟩ : BufTy).Contents (Elt Ideal))
    (j : S32x256x256.Idx) :
    val_main_v38 (F := Ideal) x2 x3 j = 0#32 ∨ val_main_v38 (F := Ideal) x2 x3 j = 1#32 := by
  unfold val_main_v38
  by_cases h : ∃ j₀, scatter_S32x256x256_S32768x3_S32768_n_012_012_1.resultIdx? j₀ (val_main_v36 (F := Ideal) x2 x3) = some j
  · obtain ⟨j₀, h₀⟩ := h
    refine Or.inr ?_
    rw [scatter_set_apply_of_landed _ _ _ _ j j₀ h₀ fun j' _ => (ones_apply j').trans (ones_apply j₀).symm]
    exact ones_apply j₀
  · refine Or.inl ?_
    rw [scatter_apply_of_missed _ _ _ _ _ j fun j' hj' => h ⟨j', hj'⟩]
    exact zeros_apply j

/-- The wrap of negative entries leaves the adjacency alone: none of its entries is negative. -/
theorem wrapped_entry (x2 : (⟨S2x32768, .i32⟩ : BufTy).Contents (Elt Ideal)) (x3 : (⟨S8192, .i32⟩ : BufTy).Contents (Elt Ideal))
    (j : S32x256x256.Idx) :
    val_main_v46 (F := Ideal) x2 x3 j = val_main_v38 (F := Ideal) x2 x3 j := by
  rw [val_main_v46_apply, val_main_v43_apply, val_main_v42_apply, val_main_c_12_apply]
  rcases adj_entry x2 x3 j with h | h
  · rw [h, show IntOp.cmpi .slt (0#32) (0#32) = 0#1 from by decide, select_zero]
  · rw [h, show IntOp.cmpi .slt (1#32) (0#32) = 0#1 from by decide, select_zero]

/-! ## The table: row 0 replaced by zeros -/

/-- The one scatter index of the table's scatter reads zero. -/
theorem tab_index_zero (k : S1.Idx) : (val_main_v39 (F := Ideal) k).toInt = 0 := by
  rw [val_main_v39_apply, val_main_c_11_apply]
  decide

/-- Where the update for column c lands: at row 0, column c. -/
def tabAt (j : S32.Idx) : S2x32.Idx := ix2 (0 : Fin 2) (⟨(j 0).val, (j 0).isLt⟩ : Fin 32)

theorem tabAt_injective : Function.Injective tabAt := fun j j' h => by
  rw [eq_ix1 j, eq_ix1 j']
  have e : ((tabAt j) 1).val = ((tabAt j') 1).val := by rw [h]
  rw [Fin.ext (show (j 0).val = (j' 0).val from e)]

theorem tab_lands (j : S32.Idx) :
    scatter_S2x32_S1_S32_0_0_0_0.resultIdx? j (val_main_v39 (F := Ideal)) = some (tabAt j) := by
  refine resultIdx?_eq_some_of_coords _ j _ _ fun a => ?_
  rw [start_eq_zero_of_zero _ j _ tab_index_zero a]
  match a with
  | ⟨0, _⟩ =>
    show (0 : Int) + ((scatter_S2x32_S1_S32_0_0_0_0.window j 0 : ℕ) : Int) = _
    have hw : scatter_S2x32_S1_S32_0_0_0_0.window j 0 = 0 := by
      unfold ScatterDims.window
      rw [dif_neg (by decide)]
    rw [hw]; rfl
  | ⟨1, _⟩ =>
    show (0 : Int) + ((scatter_S2x32_S1_S32_0_0_0_0.window j 1 : ℕ) : Int) = _
    rw [window_of_mem _ j 1 (by decide), Int.zero_add]; rfl

/-- Row 0 of the table is zero. -/
theorem tab_row0 (x1 : (⟨S2x32, .f32⟩ : BufTy).Contents (Elt Ideal)) (ch : Fin 32) :
    val_main_v41 (F := Ideal) x1 (ix2 (0 : Fin 2) ch) = (0 : EReal) := by
  unfold val_main_v41
  have h := scatter_set_apply_emb scatter_S2x32_S1_S32_0_0_0_0 x1 (val_main_v39 (F := Ideal)) (val_main_v40 (F := Ideal))
    tabAt tab_lands tabAt_injective (ix1 ch)
  refine Eq.trans h ?_
  rw [val_main_v40_apply, val_main_cst_apply]
  exact Ideal.ofBits_zero_f32

/-- Row 1 of the table is the embedding table's row 1. -/
theorem tab_row1 (x1 : (⟨S2x32, .f32⟩ : BufTy).Contents (Elt Ideal)) (ch : Fin 32) :
    val_main_v41 (F := Ideal) x1 (ix2 (1 : Fin 2) ch) = x1 (ix2 (1 : Fin 2) ch) := by
  unfold val_main_v41
  exact scatter_apply_off_emb scatter_S2x32_S1_S32_0_0_0_0 _ x1 (val_main_v39 (F := Ideal)) (val_main_v40 (F := Ideal))
    tabAt tab_lands _ fun j hj => absurd (congrArg (fun k : S2x32.Idx => (k 0).val) hj) (show ¬ (0 : Nat) = 1 from Nat.zero_ne_one)

/-! ## The gather of rows at the adjacency's entries -/

/-- The start index the gather reads at (g, s, t, ch) is the adjacency's entry at (g, s, t). -/
theorem start_entry (x2 : (⟨S2x32768, .i32⟩ : BufTy).Contents (Elt Ideal)) (x3 : (⟨S8192, .i32⟩ : BufTy).Contents (Elt Ideal))
    (g : Fin 32) (s t : Fin 256) :
    val_main_v47 (F := Ideal) x2 x3 (ix4 g s t (0 : Fin 1)) = val_main_v38 (F := Ideal) x2 x3 (ix3 g s t) := by
  rw [val_main_v47_apply, wrapped_entry]
  refine congrArg _ (funext fun a => ?_)
  match a with
  | ⟨0, _⟩ => rfl
  | ⟨1, _⟩ => rfl
  | ⟨2, _⟩ => rfl

/-- The gathered row at (g, s, t, ch): the adjacency's entry, as an integer, times the table's entry (1, ch). -/
theorem gathered_entry (x1 : (⟨S2x32, .f32⟩ : BufTy).Contents (Elt Ideal)) (x2 : (⟨S2x32768, .i32⟩ : BufTy).Contents (Elt Ideal))
    (x3 : (⟨S8192, .i32⟩ : BufTy).Contents (Elt Ideal)) (g : Fin 32) (s t : Fin 256) (ch : Fin 32) :
    val_main_v48 (F := Ideal) x1 x2 x3 (ix4 g s t ch)
      = ((((val_main_v38 (F := Ideal) x2 x3 (ix3 g s t)).toInt : ℝ) : EReal)) * x1 (ix2 (1 : Fin 2) ch) := by
  unfold val_main_v48
  refine (gather_rows3_apply (P := 2) (C := 32) (B0 := 32) (B1 := 256) (B2 := 256) (w := 32) (by decide)
    gather_S2x32_S32x256x256x1_S32x256x256x32_3_0_n_n_0_3_132 rfl rfl rfl rfl rfl rfl
    (val_main_v41 (F := Ideal) x1) (val_main_v47 (F := Ideal) x2 x3) g s t ch).trans ?_
  have hs := start_entry x2 x3 g s t
  rcases adj_entry x2 x3 (ix3 g s t) with h | h
  · -- the entry is 0: the clamped row is row 0
    have hrow : (⟨min (val_main_v47 (F := Ideal) x2 x3 (ix4 g s t (0 : Fin 1))).toInt.toNat (2 - 1), by omega⟩ : Fin 2)
        = (0 : Fin 2) :=
      Fin.ext (by
        show min (val_main_v47 (F := Ideal) x2 x3 (ix4 g s t (0 : Fin 1))).toInt.toNat (2 - 1) = 0
        rw [hs, h]; decide)
    rw [hrow, h, Cert.RingEdge.zero_entry_mul]
    exact tab_row0 x1 ch
  · -- the entry is 1: the clamped row is row 1
    have hrow : (⟨min (val_main_v47 (F := Ideal) x2 x3 (ix4 g s t (0 : Fin 1))).toInt.toNat (2 - 1), by omega⟩ : Fin 2)
        = (1 : Fin 2) :=
      Fin.ext (by
        show min (val_main_v47 (F := Ideal) x2 x3 (ix4 g s t (0 : Fin 1))).toInt.toNat (2 - 1) = 1
        rw [hs, h]; decide)
    rw [hrow, h, Cert.RingEdge.one_entry_mul]
    exact tab_row1 x1 ch

/-! ## The result -/

/-- THE REFERENCE IS THE ENCODED EDGE FEATURES of its edge features, its adjacency and its embedding table. -/
theorem ref_is_encoded (x0 : (⟨S32x256x256x32, .f32⟩ : BufTy).Contents (Elt Ideal)) (x1 : (⟨S2x32, .f32⟩ : BufTy).Contents (Elt Ideal))
    (x2 : (⟨S2x32768, .i32⟩ : BufTy).Contents (Elt Ideal)) (x3 : (⟨S8192, .i32⟩ : BufTy).Contents (Elt Ideal)) :
    Cert.ReferenceIdeal.Read.val_main_v49 (F := Ideal) x0 x1 x2 x3
      = Cert.RingEdge.encoded x0 (Cert.ReferenceIdeal.Read.val_main_v38 (F := Ideal) x2 x3) x1 := by
  funext i
  obtain ⟨g, s, t, ch, rfl⟩ : ∃ (g : Fin 32) (s t : Fin 256) (ch : Fin 32), i = ix4 g s t ch :=
    ⟨i 0, i 1, i 2, i 3, eq_ix4 i⟩
  rw [val_main_v49_apply, Cert.RingEdge.encoded_apply, gathered_entry]
  rfl

end Cert.ReferenceIdeal.RefValue

end
-- ==== Proof.lean ====
/-
  The ring-edge encoder: a kernel that adds, to every edge's feature vector, row 1 of a two-row embedding table wherever the
  ring adjacency holds a one, against a reference that looks the adjacency entry up in the table with row 0 set to zero.

  Both programs build the same 0/1 adjacency from the edge list by the same host operations: a scatter of ones into a
  zero array, so every entry is zero or one whatever the indices are. The kernel multiplies the entry, read as a number,
  by row 1 and adds it to the edge features, block by block over a grid that tiles the array; the reference gathers row
  0 (zero) or row 1 of the table and adds. With 0 · y = 0 and 1 · y = y on the extended reals the two results are one
  function of the arguments, index by index; no finiteness of the inputs is used.

  The frames: each kernel program is its host operations, none of which writes an argument, then one pipelined kernel
  whose only written array is the result; the reference is host operations only.
-/
import proofs.«417985_j46660524703963_1_alg».proof.Defs
import proofs.«417985_j46660524703963_1_alg».proof.Proof.Gen.Kernel
import proofs.«417985_j46660524703963_1_alg».proof.Proof.Gen.KernelIdeal
import proofs.«417985_j46660524703963_1_alg».proof.Proof.Gen.ReferenceIdeal
import proofs.«417985_j46660524703963_1_alg».proof.Proof.Gen.Pre_finite_inputs
import proofs.«417985_j46660524703963_1_alg».proof.Proof.Gen.ReferenceIdeal.Run
import proofs.«417985_j46660524703963_1_alg».proof.Proof.Gen.ReferenceIdeal.Read
import proofs.«417985_j46660524703963_1_alg».proof.Proof.FrameBits
import proofs.«417985_j46660524703963_1_alg».proof.Proof.FrameIdeal
import proofs.«417985_j46660524703963_1_alg».proof.Proof.Bridge
import proofs.«417985_j46660524703963_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : @Cert.frame_Kernel Cert.Kernel.Gen.facts Cert.Pre_finite_inputs.Gen.facts :=
  fun m ρ _ => Cert.Kernel.Fr.frame m ρ

/-- The idealized kernel program runs and keeps its arguments. -/
theorem frame_ki : @Cert.frame_KernelIdeal Cert.KernelIdeal.Gen.facts Cert.Pre_finite_inputs.Gen.facts :=
  fun m ρ _ => Cert.KernelIdeal.Fr.frame m ρ

/-- The reference runs and keeps its arguments: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on the arguments both programs end with the encoded edge features of those arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.RefValue.ref_is_encoded,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
